-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8 : Shape := ⟨2, ![1024, 8]⟩
abbrev S1024 : Shape := ⟨1, ![1024]⟩
abbrev S8192x8192 : Shape := ⟨2, ![8192, 8192]⟩
abbrev S128x8192 : Shape := ⟨2, ![128, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S128x8192 : S_.BroadcastsInDim S128x8192 (![] : Fin 0 → Fin S128x8192.rank)
  reducesTo_S128x8192_S_d0_1 : S128x8192.ReducesTo [0, 1] S_
  bcast_S_S1024x8 : S_.BroadcastsInDim S1024x8 (![] : Fin 0 → Fin S1024x8.rank)
  reducesTo_S1024x8_S_d0_1 : S1024x8.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg0 : IVec S1024x8 32) (main_arg1 : IVec S1024 32) (main_v13 : IVec S_ 1) (main_v15 : IVec S1024x8 1) (main_c_5 : IVec S_ 32) : IVec S_ 1 :=
  let main_v16 : IVec S1024x8 32 := broadcastInDim S1024x8 ![] bcast_S_S1024x8 main_c_5
  let main_v17 : IVec S1024x8 1 := cmpi .slt main_arg0 main_v16
  let main_v18 : IVec S1024x8 1 := andi main_v15 main_v17
  let main_c_6 : IVec S_ 1 := constantI S_ 1 1#1
  let main_v19 : IVec S_ 1 := (fun x v => Host.reduce IntOp.andi x v reducesTo_S1024x8_S_d0_1 h_S_) main_v18 main_c_6
  let main_v20 : IVec S_ 1 := andi main_v13 main_v19
  let main_c_7 : IVec S_ 32 := constantI S_ 32 4294959104#32
  let main_v21 : IVec S1024 32 := broadcastInDim S1024 ![] bcast_S_S1024 main_c_7
  let main_v22 : IVec S1024 1 := cmpi .sge main_arg1 main_v21
  let main_c_8 : IVec S_ 32 := constantI S_ 32 8192#32
  let main_v23 : IVec S1024 32 := broadcastInDim S1024 ![] bcast_S_S1024 main_c_8
  let main_v24 : IVec S1024 1 := cmpi .slt main_arg1 main_v23
  let main_v25 : IVec S1024 1 := andi main_v22 main_v24
  let main_c_9 : IVec S_ 1 := constantI S_ 1 1#1
  let main_v26 : IVec S_ 1 := (fun x v => Host.reduce IntOp.andi x v reducesTo_S1024_S_d0 h_S_) main_v25 main_c_9
  let main_v27 : IVec S_ 1 := andi main_v20 main_v26
  main_v27

def fn {F : FTy → Type} [FloatOps F] (main_arg0 : IVec S1024x8 32) (main_arg1 : IVec S1024 32) (main_arg2 : FVec F S8192x8192 .f32) (main_arg3 : FVec F S128x8192 .f32) (main_arg4 : FVec F S128x8192 .f32) : IVec S_ 1 :=
  let main_v0 : FVec F S8192x8192 .f32 := Host.absf main_arg2
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S128x8192 .f32 := Host.absf main_arg3
  let main_cst_0 : FVec F S_ .f32 := constant S_ .f32 0x7F800000#32
  let main_v5 : FVec F S128x8192 .f32 := broadcastInDim S128x8192 ![] bcast_S_S128x8192 main_cst_0
  let main_v6 : IVec S128x8192 1 := cmpf .olt main_v4 main_v5
  let main_c_1 : IVec S_ 1 := constantI S_ 1 1#1
  let main_v7 : IVec S_ 1 := (fun x v => Host.reduce IntOp.andi x v reducesTo_S128x8192_S_d0_1 h_S_) main_v6 main_c_1
  let main_v8 : IVec S_ 1 := andi main_v3 main_v7
  let main_v9 : FVec F S128x8192 .f32 := Host.absf main_arg4
  let main_cst_2 : FVec F S_ .f32 := constant S_ .f32 0x7F800000#32
  let main_v10 : FVec F S128x8192 .f32 := broadcastInDim S128x8192 ![] bcast_S_S128x8192 main_cst_2
  let main_v11 : IVec S128x8192 1 := cmpf .olt main_v9 main_v10
  let main_c_3 : IVec S_ 1 := constantI S_ 1 1#1
  let main_v12 : IVec S_ 1 := (fun x v => Host.reduce IntOp.andi x v reducesTo_S128x8192_S_d0_1 h_S_) main_v11 main_c_3
  let main_v13 : IVec S_ 1 := andi main_v8 main_v12
  let main_c_4 : IVec S_ 32 := constantI S_ 32 4294959104#32
  let main_v14 : IVec S1024x8 32 := broadcastInDim S1024x8 ![] bcast_S_S1024x8 main_c_4
  let main_v15 : IVec S1024x8 1 := cmpi .sge main_arg0 main_v14
  let main_c_5 : IVec S_ 32 := constantI S_ 32 8192#32
  fn_part1 (F := F) main_arg0 main_arg1 main_v13 main_v15 main_c_5
-- ==== Kernel.lean ====
abbrev S1024x8 : Shape := ⟨2, ![1024, 8]⟩
abbrev S1024 : Shape := ⟨1, ![1024]⟩
abbrev S8192x8192 : Shape := ⟨2, ![8192, 8192]⟩
abbrev S128x8192 : Shape := ⟨2, ![128, 8192]⟩
abbrev S8192x128 : Shape := ⟨2, ![8192, 128]⟩
abbrev S8192x256 : Shape := ⟨2, ![8192, 256]⟩
abbrev S1024x2048 : Shape := ⟨2, ![1024, 2048]⟩
abbrev S1024x256 : Shape := ⟨2, ![1024, 256]⟩
abbrev S2048x256 : Shape := ⟨2, ![2048, 256]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x128 : Shape := ⟨2, ![1024, 128]⟩
abbrev S8x1024 : Shape := ⟨2, ![8, 1024]⟩
abbrev S8x1024x1 : Shape := ⟨3, ![8, 1024, 1]⟩
abbrev S1x1x1 : Shape := ⟨3, ![1, 1, 1]⟩
abbrev S8x1024x128 : Shape := ⟨3, ![8, 1024, 128]⟩

abbrev nBuf : Space → Nat
  | .hbm => 58
  | .vmem => 6
  | .smem => 0
  | _ => 0

abbrev bufTy : (tb : Table) → Fin (tcTables nBuf tb) → BufTy
  | .hbm, ⟨0, _⟩ => ⟨S1024x8, .i32⟩
  | .hbm, ⟨1, _⟩ => ⟨S1024, .i32⟩
  | .hbm, ⟨2, _⟩ => ⟨S8192x8192, .f32⟩
  | .hbm, ⟨3, _⟩ => ⟨S128x8192, .f32⟩
  | .hbm, ⟨4, _⟩ => ⟨S128x8192, .f32⟩
  | .hbm, ⟨5, _⟩ => ⟨S8192x128, .f32⟩
  | .hbm, ⟨6, _⟩ => ⟨S8192x128, .f32⟩
  | .hbm, ⟨7, _⟩ => ⟨S8192x256, .f32⟩
  | .hbm, ⟨8, _⟩ => ⟨S8192x256, .f32⟩
  | .hbm, ⟨9, _⟩ => ⟨S8192x128, .f32⟩
  | .hbm, ⟨10, _⟩ => ⟨S8192x128, .f32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S1024x1, .i32⟩
  | .hbm, ⟨19, _⟩ => ⟨S1, .i32⟩
  | .hbm, ⟨20, _⟩ => ⟨S_, .i32⟩
  | .hbm, ⟨21, _⟩ => ⟨S1024x1, .i32⟩
  | .hbm, ⟨22, _⟩ => ⟨S1024x1, .i1⟩
  | .hbm, ⟨23, _⟩ => ⟨S1x1, .i32⟩
  | .hbm, ⟨24, _⟩ => ⟨S1024x1, .i32⟩
  | .hbm, ⟨25, _⟩ => ⟨S1024x1, .i1⟩
  | .hbm, ⟨26, _⟩ => ⟨S1024x1, .i1⟩
  | .hbm, ⟨27, _⟩ => ⟨S_, .i1⟩
  | .hbm, ⟨28, _⟩ => ⟨S1024, .i1⟩
  | .hbm, ⟨29, _⟩ => ⟨S1024x128, .f32⟩
  | .hbm, ⟨30, _⟩ => ⟨S1024x128, .i1⟩
  | .hbm, ⟨31, _⟩ => ⟨S_, .f32⟩
  | .hbm, ⟨32, _⟩ => ⟨S1024x128, .f32⟩
  | .hbm, ⟨33, _⟩ => ⟨S1024x128, .f32⟩
  | .hbm, ⟨34, _⟩ => ⟨S8x1024, .i32⟩
  | .hbm, ⟨35, _⟩ => ⟨S_, .i32⟩
  | .hbm, ⟨36, _⟩ => ⟨S8x1024, .i32⟩
  | .hbm, ⟨37, _⟩ => ⟨S8x1024, .i1⟩
  | .hbm, ⟨38, _⟩ => ⟨S_, .i32⟩
  | .hbm, ⟨39, _⟩ => ⟨S8x1024, .i32⟩
  | .hbm, ⟨40, _⟩ => ⟨S8x1024, .i32⟩
  | .hbm, ⟨41, _⟩ => ⟨S8x1024, .i32⟩
  | .hbm, ⟨42, _⟩ => ⟨S8x1024x1, .i32⟩
  | .hbm, ⟨43, _⟩ => ⟨S1, .i32⟩
  | .hbm, ⟨44, _⟩ => ⟨S_, .i32⟩
  | .hbm, ⟨45, _⟩ => ⟨S8x1024x1, .i32⟩
  | .hbm, ⟨46, _⟩ => ⟨S8x1024x1, .i1⟩
  | .hbm, ⟨47, _⟩ => ⟨S1x1x1, .i32⟩
  | .hbm, ⟨48, _⟩ => ⟨S8x1024x1, .i32⟩
  | .hbm, ⟨49, _⟩ => ⟨S8x1024x1, .i1⟩
  | .hbm, ⟨50, _⟩ => ⟨S8x1024x1, .i1⟩
  | .hbm, ⟨51, _⟩ => ⟨S_, .i1⟩
  | .hbm, ⟨52, _⟩ => ⟨S8x1024, .i1⟩
  | .hbm, ⟨53, _⟩ => ⟨S8x1024x128, .f32⟩
  | .hbm, ⟨54, _⟩ => ⟨S8x1024x128, .i1⟩
  | .hbm, ⟨55, _⟩ => ⟨S_, .f32⟩
  | .hbm, ⟨56, _⟩ => ⟨S8x1024x128, .f32⟩
  | .hbm, ⟨57, _⟩ => ⟨S8x1024x128, .f32⟩
  | .local _ .vmem, ⟨0, _⟩ => ⟨S1024x2048, .f32⟩
  | .local _ .vmem, ⟨1, _⟩ => ⟨S1024x2048, .f32⟩
  | .local _ .vmem, ⟨2, _⟩ => ⟨S8192x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S1024x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v6 : Ref sig .tc := ⟨.hbm, 33, rfl⟩
abbrev main_v7 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v8 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c1024_i32 : BitVec 32 := 1024#32
  let v20 : BitVec 32 := Scalar.muli arg0 c1024_i32
  v20
def k0_off1 (i : grid0.Coords) : Fin 2 → Nat :=
  let arg0 : BitVec 32 := BitVec.ofNat 32 (i 0).val
  let c1024_i32 : BitVec 32 := 1024#32
  let v20 : BitVec 32 := Scalar.muli arg0 c1024_i32
  let v21 : BitVec 32 := v20
  let v22 : Index := Scalar.indexCast v21
  let c0_8 : Index := 0#32
  ![v22.toNat, 0]
def k0_mult2 (i : grid0.Coords) : BitVec 32 :=
  let arg1 : BitVec 32 := BitVec.ofNat 32 (i 1).val
  let c2048_i32 : BitVec 32 := 2048#32
  let v3 : BitVec 32 := Scalar.muli arg1 c2048_i32
  v3
def k0_off2 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v7 : Index := Scalar.indexCast v4
  let c0_2 : Index := 0#32
  ![v7.toNat, 0]
def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S128x8192_S8192x128_1_0 : S128x8192.Transposes [1, 0] S8192x128
  concatenates_S8192x128_S8192x128_S8192x256_d1 : Shape.Concatenates [S8192x128, S8192x128] S8192x256 1
  h_S1024x256 : 0 < S1024x256.numel
  shapeCasts_S1024x256_S1024x256 : S1024x256.ShapeCasts S1024x256
  inb_S1024x256_S1024x256_0_0 : ∀ a, (![0, 0] : Fin 2 → Nat) a + S1024x256.size a ≤ S1024x256.size a
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  h_S2048x256 : 0 < S2048x256.numel
  shapeCasts_S2048x256_S2048x256 : S2048x256.ShapeCasts S2048x256
  slices_S8192x256_S8192x128_0_0 : S8192x256.Slices ![0, 0] S8192x128
  slices_S8192x256_S8192x128_0_128 : S8192x256.Slices ![0, 128] S8192x128
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x128_0 : S1024.BroadcastsInDim S1024x128 (![0] : Fin 1 → Fin S1024x128.rank)
  bcast_S_S1024x128 : S_.BroadcastsInDim S1024x128 (![] : Fin 0 → Fin S1024x128.rank)
  transposes_S1024x8_S8x1024_1_0 : S1024x8.Transposes [1, 0] S8x1024
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S_S8x1024x1 : S_.BroadcastsInDim S8x1024x1 (![] : Fin 0 → Fin S8x1024x1.rank)
  bcast_S1_S1x1x1_2 : S1.BroadcastsInDim S1x1x1 (![2] : Fin 1 → Fin S1x1x1.rank)
  bcast_S1x1x1_S8x1024x1_0_1_2 : S1x1x1.BroadcastsInDim S8x1024x1 (![0, 1, 2] : Fin 3 → Fin S8x1024x1.rank)
  reducesTo_S8x1024x1_S8x1024_d2 : S8x1024x1.ReducesTo [2] S8x1024
  bcast_S8x1024_S8x1024x128_0_1 : S8x1024.BroadcastsInDim S8x1024x128 (![0, 1] : Fin 2 → Fin S8x1024x128.rank)
  bcast_S_S8x1024x128 : S_.BroadcastsInDim S8x1024x128 (![] : Fin 0 → Fin S8x1024x128.rank)
  dot_S1024x2048_S2048x256_S1024x256_1_0_0_1_n_n_wf : DotDims.WF S1024x2048 S2048x256 S1024x256 [1] [0] [0] [1] [] []
  gather_S8192x128_S1024x1_S1024x128_1_0_n_n_0_1_1128_wf : GatherDims.WF S8192x128 S1024x1 S1024x128 [1] [0] [] [0] [] 1 ![1, 128]
  gather_S8192x128_S8x1024x1_S8x1024x128_2_0_n_n_0_2_1128_wf : GatherDims.WF S8192x128 S8x1024x1 S8x1024x128 [2] [0] [] [0] [] 2 ![1, 128]
  hrank0 : 0 < grid0.rank
  k0_mult1_dvd : ∀ i : grid0.Coords, ∀ (k0_h1 : k0_cond1 i = 1#1), 1024 ∣ (k0_mult1 i).toNat
  k0_off1_inb : ∀ i : grid0.Coords, ∀ (k0_h1 : k0_cond1 i = 1#1), ∀ a, (k0_off1 i) a + S1024x256.size a ≤ S8192x256.size a
  k0_mult2_dvd : ∀ i : grid0.Coords, 2048 ∣ (k0_mult2 i).toNat
  k0_off2_inb : ∀ i : grid0.Coords, ∀ a, (k0_off2 i) a + S2048x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def gather_S8192x128_S1024x1_S1024x128_1_0_n_n_0_1_1128 : GatherDims S8192x128 S1024x1 S1024x128 where
  offsetDims := [1]
  collapsedSliceDims := [0]
  operandBatchingDims := []
  startIndicesBatchingDims := []
  startIndexMap := [0]
  indexVectorDim := 1
  sliceSizes := ![1, 128]
  wf := gather_S8192x128_S1024x1_S1024x128_1_0_n_n_0_1_1128_wf
def gather_S8192x128_S8x1024x1_S8x1024x128_2_0_n_n_0_2_1128 : GatherDims S8192x128 S8x1024x1 S8x1024x128 where
  offsetDims := [2]
  collapsedSliceDims := [0]
  operandBatchingDims := []
  startIndicesBatchingDims := []
  startIndexMap := [0]
  indexVectorDim := 2
  sliceSizes := ![1, 128]
  wf := gather_S8192x128_S8x1024x1_S8x1024x128_2_0_n_n_0_2_1128_wf

abbrev win0_0 : Pipeline.Window sig grid0 :=
  Pipeline.Window.ofSpec (Memref.whole main_arg2) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1024x8 : Shape := ⟨2, ![1024, 8]⟩
abbrev S1024 : Shape := ⟨1, ![1024]⟩
abbrev S8192x8192 : Shape := ⟨2, ![8192, 8192]⟩
abbrev S128x8192 : Shape := ⟨2, ![128, 8192]⟩
abbrev S8192x128 : Shape := ⟨2, ![8192, 128]⟩
abbrev S_ : Shape := ⟨0, ![]⟩
abbrev S1024x1 : Shape := ⟨2, ![1024, 1]⟩
abbrev S1024x128 : Shape := ⟨2, ![1024, 128]⟩
abbrev S1024x8192 : Shape := ⟨2, ![1024, 8192]⟩
abbrev S1024x8x1 : Shape := ⟨3, ![1024, 8, 1]⟩
abbrev S1024x8x8192 : Shape := ⟨3, ![1024, 8, 8192]⟩
abbrev S1024x8x128 : Shape := ⟨3, ![1024, 8, 128]⟩
abbrev S8x1024x128 : Shape := ⟨3, ![8, 1024, 128]⟩

abbrev nBuf : Space → Nat
  | .hbm => 49
  | .vmem => 0
  | .smem => 0
  | _ => 0

abbrev bufTy : (tb : Table) → Fin (tcTables nBuf tb) → BufTy
  | .hbm, ⟨0, _⟩ => ⟨S1024x8, .i32⟩
  | .hbm, ⟨1, _⟩ => ⟨S1024, .i32⟩
  | .hbm, ⟨2, _⟩ => ⟨S8192x8192, .f32⟩
  | .hbm, ⟨3, _⟩ => ⟨S128x8192, .f32⟩
  | .hbm, ⟨4, _⟩ => ⟨S128x8192, .f32⟩
  | .hbm, ⟨5, _⟩ => ⟨S8192x128, .f32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1024x128, .f32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S1024, .i32⟩
  | .hbm, ⟨22, _⟩ => ⟨S1024x1, .i32⟩
  | .hbm, ⟨23, _⟩ => ⟨S1024x8192, .f32⟩
  | .hbm, ⟨24, _⟩ => ⟨S8192x128, .f32⟩
  | .hbm, ⟨25, _⟩ => ⟨S1024x128, .f32⟩
  | .hbm, ⟨26, _⟩ => ⟨S1024x128, .f32⟩
  | .hbm, ⟨27, _⟩ => ⟨S_, .i32⟩
  | .hbm, ⟨28, _⟩ => ⟨S1024x8, .i32⟩
  | .hbm, ⟨29, _⟩ => ⟨S1024x8, .i1⟩
  | .hbm, ⟨30, _⟩ => ⟨S_, .i32⟩
  | .hbm, ⟨31, _⟩ => ⟨S1024x8, .i32⟩
  | .hbm, ⟨32, _⟩ => ⟨S1024x8, .i32⟩
  | .hbm, ⟨33, _⟩ => ⟨S1024x8, .i32⟩
  | .hbm, ⟨34, _⟩ => ⟨S1024x8x1, .i32⟩
  | .hbm, ⟨35, _⟩ => ⟨S1024x8x8192, .f32⟩
  | .hbm, ⟨36, _⟩ => ⟨S8192x128, .f32⟩
  | .hbm, ⟨37, _⟩ => ⟨S_, .i32⟩
  | .hbm, ⟨38, _⟩ => ⟨S1024x8, .i32⟩
  | .hbm, ⟨39, _⟩ => ⟨S1024x8, .i1⟩
  | .hbm, ⟨40, _⟩ => ⟨S_, .i32⟩
  | .hbm, ⟨41, _⟩ => ⟨S1024x8, .i32⟩
  | .hbm, ⟨42, _⟩ => ⟨S1024x8, .i32⟩
  | .hbm, ⟨43, _⟩ => ⟨S1024x8, .i32⟩
  | .hbm, ⟨44, _⟩ => ⟨S1024x8x1, .i32⟩
  | .hbm, ⟨45, _⟩ => ⟨S1024x8x128, .f32⟩
  | .hbm, ⟨46, _⟩ => ⟨S1024x8x128, .f32⟩
  | .hbm, ⟨47, _⟩ => ⟨S1024x8x128, .f32⟩
  | .hbm, ⟨48, _⟩ => ⟨S8x1024x128, .f32⟩
  | _, _ => ⟨S1024x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_c_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  transposes_S128x8192_S8192x128_1_0 : S128x8192.Transposes [1, 0] S8192x128
  bcast_S_S1024 : S_.BroadcastsInDim S1024 (![] : Fin 0 → Fin S1024.rank)
  bcast_S1024_S1024x1_0 : S1024.BroadcastsInDim S1024x1 (![0] : Fin 1 → Fin S1024x1.rank)
  bcast_S_S1024x8 : S_.BroadcastsInDim S1024x8 (![] : Fin 0 → Fin S1024x8.rank)
  bcast_S1024x8_S1024x8x1_0_1 : S1024x8.BroadcastsInDim S1024x8x1 (![0, 1] : Fin 2 → Fin S1024x8x1.rank)
  transposes_S1024x8x128_S8x1024x128_1_0_2 : S1024x8x128.Transposes [1, 0, 2] S8x1024x128
  gather_S8192x128_S1024x1_S1024x128_1_0_n_n_0_1_1128_wf : GatherDims.WF S8192x128 S1024x1 S1024x128 [1] [0] [] [0] [] 1 ![1, 128]
  gather_S8192x8192_S1024x1_S1024x8192_1_0_n_n_0_1_18192_wf : GatherDims.WF S8192x8192 S1024x1 S1024x8192 [1] [0] [] [0] [] 1 ![1, 8192]
  dot_S1024x8192_S8192x128_S1024x128_1_0_0_1_n_n_wf : DotDims.WF S1024x8192 S8192x128 S1024x128 [1] [0] [0] [1] [] []
  gather_S8192x8192_S1024x8x1_S1024x8x8192_2_0_n_n_0_2_18192_wf : GatherDims.WF S8192x8192 S1024x8x1 S1024x8x8192 [2] [0] [] [0] [] 2 ![1, 8192]
  gather_S8192x128_S1024x8x1_S1024x8x128_2_0_n_n_0_2_1128_wf : GatherDims.WF S8192x128 S1024x8x1 S1024x8x128 [2] [0] [] [0] [] 2 ![1, 128]
  dot_S1024x8x8192_S128x8192_S1024x8x128_2_1_01_0_n_n_wf : DotDims.WF S1024x8x8192 S128x8192 S1024x8x128 [2] [1] [0, 1] [0] [] []

variable [Facts₀]

def gather_S8192x128_S1024x1_S1024x128_1_0_n_n_0_1_1128 : GatherDims S8192x128 S1024x1 S1024x128 where
  offsetDims := [1]
  collapsedSliceDims := [0]
  operandBatchingDims := []
  startIndicesBatchingDims := []
  startIndexMap := [0]
  indexVectorDim := 1
  sliceSizes := ![1, 128]
  wf := gather_S8192x128_S1024x1_S1024x128_1_0_n_n_0_1_1128_wf
def gather_S8192x8192_S1024x1_S1024x8192_1_0_n_n_0_1_18192 : GatherDims S8192x8192 S1024x1 S1024x8192 where
  offsetDims := [1]
  collapsedSliceDims := [0]
  operandBatchingDims := []
  startIndicesBatchingDims := []
  startIndexMap := [0]
  indexVectorDim := 1
  sliceSizes := ![1, 8192]
  wf := gather_S8192x8192_S1024x1_S1024x8192_1_0_n_n_0_1_18192_wf
def dot_S1024x8192_S8192x128_S1024x128_1_0_0_1_n_n : DotDims S1024x8192 S8192x128 S1024x128 where
  lhsContracting := [1]
  rhsContracting := [0]
  lhsNonContracting := [0]
  rhsNonContracting := [1]
  lhsBatch := []
  rhsBatch := []
  wf := dot_S1024x8192_S8192x128_S1024x128_1_0_0_1_n_n_wf
def gather_S8192x8192_S1024x8x1_S1024x8x8192_2_0_n_n_0_2_18192 : GatherDims S8192x8192 S1024x8x1 S1024x8x8192 where
  offsetDims := [2]
  collapsedSliceDims := [0]
  operandBatchingDims := []
  startIndicesBatchingDims := []
  startIndexMap := [0]
  indexVectorDim := 2
  sliceSizes := ![1, 8192]
  wf := gather_S8192x8192_S1024x8x1_S1024x8x8192_2_0_n_n_0_2_18192_wf
def gather_S8192x128_S1024x8x1_S1024x8x128_2_0_n_n_0_2_1128 : GatherDims S8192x128 S1024x8x1 S1024x8x128 where
  offsetDims := [2]
  collapsedSliceDims := [0]
  operandBatchingDims := []
  startIndicesBatchingDims := []
  startIndexMap := [0]
  indexVectorDim := 2
  sliceSizes := ![1, 128]
  wf := gather_S8192x128_S1024x8x1_S1024x8x128_2_0_n_n_0_2_1128_wf
def dot_S1024x8x8192_S128x8192_S1024x8x128_2_1_01_0_n_n : DotDims S1024x8x8192 S128x8192 S1024x8x128 where
  lhsContracting := [2]
  rhsContracting := [1]
  lhsNonContracting := [0, 1]
  rhsNonContracting := [0]
  lhsBatch := []
  rhsBatch := []
  wf := dot_S1024x8x8192_S128x8192_S1024x8x128_2_1_01_0_n_n_wf

class Facts : Prop extends Facts₀ where

variable [Facts]
-- ==== Proof.Body.lean ====
/-
  What one grid point of the kernel leaves in its accumulator.

  At a point with coordinates (i, k) the body multiplies the point's block of the table (1024 rows, 2048 columns) with
  rows 2048·k … 2048·k + 2047 of the resident weight table and adds the product to the accumulator; at k = 0 the
  accumulator is first set to rows 1024·i … 1024·i + 1023 of the weight table; at k = 3 the accumulator is copied to
  the output block. So each of the three control cases leaves, in the accumulator, the update of what was there (or of
  the reset value), and the last case leaves the same in the output block.
-/
import proofs.«423988_j36223754174522_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.CoProj.Body

open Cert.KernelIdeal Cert.KernelIdeal.Gen

variable {F : FTy → Type} [FloatOps F]

theorem hz : (![0, 0] : Fin 2 → Nat) = fun _ => 0 := funext fun a => by fin_cases a <;> rfl

/-- The 2048 rows of the weight table the point multiplies with: rows `2048·k …`. -/
def wrows (i : grid0.Coords) (x1 : Vec F S8192x256 .f32) : Vec F S2048x256 .f32 :=
  View.ld x1 (Rect.unit (s := S8192x256) (k0_off2 i) S2048x256.size (k0_off2_inb i))

/-- The 1024 rows of the weight table the accumulator is reset to at `k = 0`: rows `1024·i …`. -/
def brows (i : grid0.Coords) (hc0 : cond0_0 i) (x1 : Vec F S8192x256 .f32) : Vec F S1024x256 .f32 :=
  View.ld x1 (Rect.unit (s := S8192x256) (k0_off1 i) S1024x256.size (k0_off1_inb i hc0))

/-- A middle point (`0 < k < 3`): the accumulator is updated. -/
theorem sout_B (c : Dev nD) (i : grid0.Coords) (a2 : Memref sig .tc .vmem S1024x2048 .f32) (h2 : a2.IsWhole)
    (a3 : Memref sig .tc .vmem S8192x256 .f32) (h3 : a3.IsWhole) (a4 : Memref sig .tc .vmem S1024x256 .f32) (h4 : a4.IsWhole)
    (a5 : Memref sig .tc .vmem S1024x256 .f32) (h5 : a5.IsWhole) (hc0 : ¬cond0_0 i) (hc1 : ¬cond0_1 i)
    (x0 : Vec F S1024x2048 .f32) (x1 : Vec F S8192x256 .f32) (xs0 : Vec F S1024x256 .f32) :
    sout0_B_0 c i a2 h2 a3 h3 a4 h4 a5 h5 hc0 hc1 x0 x1 xs0 = k0_pay2 x0 (wrows i x1) xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz]
  simp only [View.readAt_eq_ld, h2.read_unread, h3.read_unread, h5.read_unread, View.ld_unit_zero (S := S1024x2048) hz,
    View.ld_unit_zero (S := S1024x256) hz]
  rfl

/-- The first point of a row of blocks (`k = 0`): the accumulator is reset to the weight rows, then updated. -/
theorem sout_A (c : Dev nD) (i : grid0.Coords) (a2 : Memref sig .tc .vmem S1024x2048 .f32) (h2 : a2.IsWhole)
    (a3 : Memref sig .tc .vmem S8192x256 .f32) (h3 : a3.IsWhole) (a4 : Memref sig .tc .vmem S1024x256 .f32) (h4 : a4.IsWhole)
    (a5 : Memref sig .tc .vmem S1024x256 .f32) (h5 : a5.IsWhole) (hc0 : cond0_0 i) (hc1 : ¬cond0_1 i)
    (x0 : Vec F S1024x2048 .f32) (x1 : Vec F S8192x256 .f32) :
    sout0_A_0 c i a2 h2 a3 h3 a4 h4 a5 h5 hc0 hc1 x0 x1 = k0_pay2 x0 (wrows i x1) (k0_pay1 (brows i hc0 x1)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x256) hz, View.readCov_unit_zero (S := S1024x256) _ hz]
  simp only [View.readAt_eq_ld, h2.read_unread, h3.read_unread, View.ld_unit_zero (S := S1024x2048) hz]
  rfl

/-- The last point of a row of blocks (`k = 3`): the accumulator is updated … -/
theorem sout_C (c : Dev nD) (i : grid0.Coords) (a2 : Memref sig .tc .vmem S1024x2048 .f32) (h2 : a2.IsWhole)
    (a3 : Memref sig .tc .vmem S8192x256 .f32) (h3 : a3.IsWhole) (a4 : Memref sig .tc .vmem S1024x256 .f32) (h4 : a4.IsWhole)
    (a5 : Memref sig .tc .vmem S1024x256 .f32) (h5 : a5.IsWhole) (hc0 : ¬cond0_0 i) (hc1 : cond0_1 i)
    (x0 : Vec F S1024x2048 .f32) (x1 : Vec F S8192x256 .f32) (xs0 : Vec F S1024x256 .f32) :
    sout0_C_0 c i a2 h2 a3 h3 a4 h4 a5 h5 hc0 hc1 x0 x1 xs0 = k0_pay2 x0 (wrows i x1) xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S1024x2048) hz,
    View.ld_unit_zero (S := S1024x256) hz]
  rfl

/-- … and copied into the output block. -/
theorem out_C (c : Dev nD) (i : grid0.Coords) (a2 : Memref sig .tc .vmem S1024x2048 .f32) (h2 : a2.IsWhole)
    (a3 : Memref sig .tc .vmem S8192x256 .f32) (h3 : a3.IsWhole) (a4 : Memref sig .tc .vmem S1024x256 .f32) (h4 : a4.IsWhole)
    (a5 : Memref sig .tc .vmem S1024x256 .f32) (h5 : a5.IsWhole) (hc0 : ¬cond0_0 i) (hc1 : cond0_1 i)
    (x0 : Vec F S1024x2048 .f32) (x1 : Vec F S8192x256 .f32) (xs0 : Vec F S1024x256 .f32) :
    out0_C_2 c i a2 h2 a3 h3 a4 h4 a5 h5 hc0 hc1 x0 x1 xs0 = k0_pay2 x0 (wrows i x1) xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S1024x256) _ hz]
  simp only [View.readAt_eq_ld, h2.read_unread, h3.read_unread, h5.read_unread, View.ld_unit_zero (S := S1024x2048) hz,
    View.ld_unit_zero (S := S1024x256) hz]
  rfl

end Cert.CoProj.Body

end
-- ==== Proof.Payload.lean ====
/-
  The body's arithmetic at an index, at the ideal instance.

  The update of the accumulator at row `r`, column `n` is the old entry plus the dot product of row `r` of the table
  block with column `n` of the 2048 weight rows (the casts to the narrow float format are the identity on extended
  reals, the product into a zero accumulator a plain sum); the reset value is the weight rows themselves.
-/
import proofs.«423988_j36223754174522_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.CoProj.Payload

open Cert.KernelIdeal Cert.KernelIdeal.Gen

variable [Cert.KernelIdeal.Facts]

/-- The reset value is the loaded rows (two casts to the same shape). -/
theorem pay1_eq {F : FTy → Type} [FloatOps F] (v : Vec F S1024x256 .f32) : k0_pay1 v = v := by
  unfold k0_pay1
  simp only [shapeCast_self]

theorem lhs_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
theorem lhs_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
theorem rhs_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
theorem rhs_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The block product at `(r, n)`: the sum over the 2048 contracted positions. -/
theorem matmul_at (a : FVec Ideal S1024x2048 .bf16) (w : FVec Ideal S2048x256 .bf16) (r : Fin 1024) (n : Fin 256) :
    FloatOps.matmul dot_S1024x2048_S2048x256_S1024x256_1_0_0_1_n_n none a w (constant S1024x256 .f32 0x00000000#32) (ix2 r n)
      = ∑ l : Fin 2048, a (ix2 r l) * w (ix2 l n) := by
  refine (Ideal.matmul_constant_zero_apply dot_S1024x2048_S2048x256_S1024x256_1_0_0_1_n_n none a w (ix2 r n)).trans ?_
  rw [← Equiv.sum_comp (ValueIdx.contrEquiv1 dot_S1024x2048_S2048x256_S1024x256_1_0_0_1_n_n 2048 rfl rfl).symm]
  refine Finset.sum_congr rfl fun k _ => ?_
  have hk := ValueIdx.contrEquiv1_symm_val dot_S1024x2048_S2048x256_S1024x256_1_0_0_1_n_n 2048 rfl rfl k
  have el : dot_S1024x2048_S2048x256_S1024x256_1_0_0_1_n_n.lhsIdx (ix2 r n) ((ValueIdx.contrEquiv1 dot_S1024x2048_S2048x256_S1024x256_1_0_0_1_n_n 2048 rfl rfl).symm k) = ix2 r k := funext fun a => Fin.ext (by
    match a with
    | ⟨0, _⟩ => exact lhs_0 _ _
    | ⟨1, _⟩ => exact (lhs_1 _ _).trans hk)
  have er : dot_S1024x2048_S2048x256_S1024x256_1_0_0_1_n_n.rhsIdx (ix2 r n) ((ValueIdx.contrEquiv1 dot_S1024x2048_S2048x256_S1024x256_1_0_0_1_n_n 2048 rfl rfl).symm k) = ix2 k n := funext fun a => Fin.ext (by
    match a with
    | ⟨0, _⟩ => exact (rhs_0 _ _).trans hk
    | ⟨1, _⟩ => exact rhs_1 _ _)
  rw [el, er]

/-- THE UPDATE at `(r, n)`: the old entry plus the dot product of the block's row with the weight rows' column. -/
theorem pay2_apply (x0 : Vec Ideal S1024x2048 .f32) (w : Vec Ideal S2048x256 .f32) (xs : Vec Ideal S1024x256 .f32)
    (r : Fin 1024) (n : Fin 256) :
    k0_pay2 (F := Ideal) x0 w xs (ix2 r n) = xs (ix2 r n) + ∑ l : Fin 2048, x0 (ix2 r l) * w (ix2 l n) := by
  unfold k0_pay2
  simp only [shapeCast_self]
  exact congrArg (xs (ix2 r n) + ·) (matmul_at (truncf .bf16 x0 bitsLt_bf16_f32) (truncf .bf16 w bitsLt_bf16_f32) r n)

end Cert.CoProj.Payload

end
-- ==== Proof.Algebra.lean ====
/-
  The sum over the 8192 contracted positions, taken 2048 at a time.

  The kernel adds the four block products to the accumulator one after the other, starting from the weight entry;
  on the extended reals addition is associative and commutative, so the running value after block `k` is the weight
  entry plus the sum of the first `k + 1` block products, and after the fourth block the weight entry plus the sum
  over all 8192 positions (position `2048·j + l` is the `l`-th of block `j`).
-/
import Idealize.ShloMosaic.PureOps.Ideal
import Idealize.ShloMosaic.Lib.ValueIdx
import Mathlib.Algebra.BigOperators.Fin
import Mathlib.Logic.Equiv.Fin.Basic

noncomputable section

open scoped BigOperators

namespace Cert.CoProj

open Idealize.ShloMosaic Idealize.ShloMosaic.ValueIdx

/-- Position `l` of column block `j`: `2048·j + l` (reduced into the table for a total definition). -/
def colOf (j : ℕ) (l : Fin 2048) : Fin 8192 := ⟨(2048 * j + l.val) % 8192, Nat.mod_lt _ (by decide)⟩

/-- Row `r` of row block `i`: `1024·i + r`. -/
def rowAt (i : ℕ) (r : Fin 1024) : Fin 8192 := ⟨(1024 * i + r.val) % 8192, Nat.mod_lt _ (by decide)⟩

/-- Four blocks of 2048 positions are all 8192 positions. -/
theorem sum_blocks {M : Type} [AddCommMonoid M] (f : Fin 8192 → M) :
    ∑ j ∈ Finset.range 4, ∑ l : Fin 2048, f (colOf j l) = ∑ k : Fin 8192, f k := by
  rw [Finset.sum_range (fun j => ∑ l : Fin 2048, f (colOf j l))]
  rw [← Fintype.sum_prod_type' (f := fun (j : Fin 4) (l : Fin 2048) => f (colOf j.val l))]
  refine Fintype.sum_equiv (finProdFinEquiv (m := 4) (n := 2048)) _ _ (fun p => ?_)
  congr 1
  apply Fin.ext
  have h1 := p.1.isLt
  have h2 := p.2.isLt
  simp only [colOf, finProdFinEquiv_apply_val]
  omega

variable (co : (⟨2, ![8192, 8192]⟩ : Shape).Idx → EReal) (W : (⟨2, ![8192, 256]⟩ : Shape).Idx → EReal)

/-- The product of row `v` of the table with column `q` of the weight table over column block `j`. -/
def blockDot (v : Fin 8192) (q : Fin 256) (j : ℕ) : EReal :=
  ∑ l : Fin 2048, co (ix2 v (colOf j l)) * W (ix2 (colOf j l) q)

/-- The accumulator entry for row `v`, column `q` after column block `k`. -/
def part (v : Fin 8192) (q : Fin 256) (k : ℕ) : EReal :=
  W (ix2 v q) + ∑ j ∈ Finset.range (k + 1), blockDot co W v q j

theorem part_zero (v : Fin 8192) (q : Fin 256) : part co W v q 0 = W (ix2 v q) + blockDot co W v q 0 := by
  unfold part
  rw [Finset.sum_range_one]

theorem part_succ (v : Fin 8192) (q : Fin 256) (k : ℕ) :
    part co W v q (k + 1) = part co W v q k + blockDot co W v q (k + 1) := by
  unfold part
  rw [Finset.sum_range_succ _ (k + 1), add_assoc]

/-- After the fourth block: the weight entry plus the whole row-by-column product. -/
theorem part_three (v : Fin 8192) (q : Fin 256) :
    part co W v q 3 = W (ix2 v q) + ∑ k : Fin 8192, co (ix2 v k) * W (ix2 k q) := by
  unfold part blockDot
  rw [sum_blocks (fun k => co (ix2 v k) * W (ix2 k q))]

end Cert.CoProj

end
-- ==== Proof.Accum.lean ====
/-
  The accumulator point by point.

  The grid has 8 × 4 points; point `t` works on row block `t / 4` and column block `t % 4`. The point's table block
  holds rows `1024·(t/4) …` and columns `2048·(t%4) …` of the table, the resident weight block is the whole weight table.
  By induction on the point, after point `t` the accumulator's entry `(r, q)` is the weight entry of row
  `1024·(t/4) + r` plus the first `t % 4 + 1` block products of that row with column `q`.
-/
import proofs.«423988_j36223754174522_3_alg».proof.Proof.Gen.KernelIdeal.Frame
import proofs.«423988_j36223754174522_3_alg».proof.Proof.Body
import proofs.«423988_j36223754174522_3_alg».proof.Proof.Payload
import proofs.«423988_j36223754174522_3_alg».proof.Proof.Algebra
import Idealize.ShloMosaic.Lib.Pipeline.Value
import Idealize.ShloMosaic.Lib.ValueIdx

noncomputable section

open scoped BigOperators
open Idealize.ShloMosaic Idealize.ShloMosaic.TcCoe Idealize.ShloMosaic.ValueIdx Idealize.SL.Sem

namespace Cert.CoProj.Accum

open Cert.KernelIdeal Cert.KernelIdeal.Gen

variable (m : (ℓ : Loc nD τ sig) → Buf (Elt Ideal) ℓ)

/-- The table as the region finds it. -/
abbrev co (c : Dev nD) : S8192x8192.Idx → EReal := V m c main_arg2
/-- The weight table (the two transposed weight matrices side by side) as the region finds it. -/
abbrev Wc (c : Dev nD) : S8192x256.Idx → EReal := V m c main_v2

/-- Point `t`'s table block is block `(t / 4, t % 4)`; the weight window's block is always block `(0, 0)`. -/
theorem idx0_facts : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem idx1_facts : ∀ t : Fin cfg0.N, win0_1.index t 0 = 0 ∧ win0_1.index t 1 = 0 :=
  (by decide +kernel : ∀ t : Fin grid0.N, win0_1.index t 0 = 0 ∧ win0_1.index t 1 = 0)
/-- The weight rows the body slices out at point `t`: from row `2048·(t % 4)`, and at a reset from row `1024·(t / 4)`. -/
theorem off2_facts : ∀ t : Fin cfg0.N, k0_off2 (grid0.coords t) 0 = 2048 * (t.val % 4) :=
  (by decide +kernel : ∀ t : Fin grid0.N, k0_off2 (grid0.coords t) 0 = 2048 * (t.val % 4))
theorem off1_facts : ∀ t : Fin cfg0.N, k0_off1 (grid0.coords t) 0 = 1024 * (t.val / 4) :=
  (by decide +kernel : ∀ t : Fin grid0.N, k0_off1 (grid0.coords t) 0 = 1024 * (t.val / 4))

/-- The table block at point `t`, at `(r, l)`: the table at row `1024·(t/4) + r`, column `2048·(t%4) + l`. -/
theorem iblk0_apply (c : Dev nD) (t : Fin cfg0.N) (r : Fin 1024) (l : Fin 2048) :
    (iblk m c 0 t : Vec Ideal S1024x2048 .f32) (ix2 r l) = co m c (ix2 (rowAt (t.val / 4) r) (colOf (t.val % 4) l)) := by
  have hi := idx0_facts t
  have hN : t.val < 32 := lt_of_lt_of_eq t.isLt (show cfg0.N = 32 from N_0)
  have hr := r.isLt
  have hl := l.isLt
  unfold iblk
  rw [View.read_apply]
  show V m c main_arg2 _ = V m c main_arg2 _
  congr 1
  funext a
  apply Fin.ext
  match a with
  | ⟨0, _⟩ =>
    show win0_0.index t 0 * 1024 + 1 * r.val = (1024 * (t.val / 4) + r.val) % 8192
    rw [hi.1]; omega
  | ⟨1, _⟩ =>
    show win0_0.index t 1 * 2048 + 1 * l.val = (2048 * (t.val % 4) + l.val) % 8192
    rw [hi.2]; omega

/-- The weight block at any point is the whole weight table. -/
theorem iblk1_apply (c : Dev nD) (t : Fin cfg0.N) (a : Fin 8192) (b : Fin 256) :
    (iblk m c 1 t : Vec Ideal S8192x256 .f32) (ix2 a b) = Wc m c (ix2 a b) := by
  have hi := idx1_facts t
  unfold iblk
  rw [View.read_apply]
  show V m c main_v2 _ = V m c main_v2 _
  congr 1
  funext d
  apply Fin.ext
  match d with
  | ⟨0, _⟩ =>
    show win0_1.index t 0 * 8192 + 1 * a.val = a.val
    rw [hi.1]; omega
  | ⟨1, _⟩ =>
    show win0_1.index t 1 * 256 + 1 * b.val = b.val
    rw [hi.2]; omega

/-- The 2048 weight rows sliced at point `t`, at `(l, q)`: the weight table at row `2048·(t%4) + l`. -/
theorem wrows_apply (c : Dev nD) (t : Fin cfg0.N) (l : Fin 2048) (q : Fin 256) :
    Body.wrows (grid0.coords t) (iblk m c 1 t : Vec Ideal S8192x256 .f32) (ix2 l q) = Wc m c (ix2 (colOf (t.val % 4) l) q) := by
  have ho := off2_facts t
  have hl := l.isLt
  have hq := q.isLt
  have h4 : t.val % 4 < 4 := Nat.mod_lt _ (by decide)
  refine Eq.trans ?_ (iblk1_apply m c t (colOf (t.val % 4) l) q)
  unfold Body.wrows
  show (iblk m c 1 t : Vec Ideal S8192x256 .f32) _ = (iblk m c 1 t : Vec Ideal S8192x256 .f32) _
  congr 1
  funext a
  apply Fin.ext
  match a with
  | ⟨0, _⟩ =>
    show k0_off2 (grid0.coords t) 0 + 1 * l.val = (2048 * (t.val % 4) + l.val) % 8192
    rw [ho]; omega
  | ⟨1, _⟩ =>
    show 0 + 1 * q.val = q.val
    omega

/-- The 1024 weight rows a reset loads at point `t`, at `(r, q)`: the weight table at row `1024·(t/4) + r`. -/
theorem brows_apply (c : Dev nD) (t : Fin cfg0.N) (hc0 : cond0_0 (grid0.coords t)) (r : Fin 1024) (q : Fin 256) :
    Body.brows (grid0.coords t) hc0 (iblk m c 1 t : Vec Ideal S8192x256 .f32) (ix2 r q) = Wc m c (ix2 (rowAt (t.val / 4) r) q) := by
  have ho := off1_facts t
  have hN : t.val < 32 := lt_of_lt_of_eq t.isLt (show cfg0.N = 32 from N_0)
  have hr := r.isLt
  refine Eq.trans ?_ (iblk1_apply m c t (rowAt (t.val / 4) r) q)
  unfold Body.brows
  show (iblk m c 1 t : Vec Ideal S8192x256 .f32) _ = (iblk m c 1 t : Vec Ideal S8192x256 .f32) _
  congr 1
  funext a
  apply Fin.ext
  match a with
  | ⟨0, _⟩ =>
    show k0_off1 (grid0.coords t) 0 + 1 * r.val = (1024 * (t.val / 4) + r.val) % 8192
    rw [ho]; omega
  | ⟨1, _⟩ =>
    show 0 + 1 * q.val = q.val
    omega

/-- ONE UPDATE: the body's update of an accumulator `prev` at point `t` adds column block `t % 4`'s product. -/
theorem update_apply (c : Dev nD) (t : Fin cfg0.N) (prev : Vec Ideal S1024x256 .f32) (r : Fin 1024) (q : Fin 256) :
    k0_pay2 (F := Ideal) (iblk m c 0 t) (Body.wrows (grid0.coords t) (iblk m c 1 t)) prev (ix2 r q)
      = prev (ix2 r q) + blockDot (co m c) (Wc m c) (rowAt (t.val / 4) r) q (t.val % 4) := by
  refine (Payload.pay2_apply (iblk m c 0 t) (Body.wrows (grid0.coords t) (iblk m c 1 t)) prev r q).trans ?_
  refine congrArg (prev (ix2 r q) + ·) ?_
  unfold blockDot
  refine Finset.sum_congr rfl fun l _ => ?_
  rw [iblk0_apply m c t r l, wrows_apply m c t l q]

end Cert.CoProj.Accum

end
-- ==== Proof.Chain.lean ====
/-
  The accumulator after every point, in closed form, by induction on the point; and the output block at the last
  point of each row of blocks.
-/
import proofs.«423988_j36223754174522_3_alg».proof.Proof.Accum

noncomputable section

open scoped BigOperators
open Idealize.ShloMosaic Idealize.ShloMosaic.TcCoe Idealize.ShloMosaic.ValueIdx Idealize.SL.Sem

namespace Cert.CoProj.Accum

open Cert.KernelIdeal Cert.KernelIdeal.Gen

variable (m : (ℓ : Loc nD τ sig) → Buf (Elt Ideal) ℓ)

/-- At the first point of a row of blocks the accumulator is the weight rows plus the first block product. -/
theorem acc_A (c : Dev nD) (t : Fin cfg0.N) (h0 : t.val % 4 = 0) (r : Fin 1024) (q : Fin 256) :
    (outsAt0 m c t.val t.isLt).2 (ix2 r q) = part (co m c) (Wc m c) (rowAt (t.val / 4) r) q 0 := by
  have h1 : ¬ t.val % 4 = 3 := by omega
  rw [outsAt0_A m c t h0 h1]
  dsimp only
  refine (congrFun (Body.sout_A (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h)) (iblk m c 0 t) (iblk m c 1 t)) (ix2 r q)).trans ?_
  refine (update_apply m c t _ r q).trans ?_
  rw [Payload.pay1_eq, brows_apply m c t ((hcond0_0 t).mpr h0) r q, part_zero, h0]

/-- At a middle point the accumulator grows by the point's block product. -/
theorem acc_B (c : Dev nD) (t : Fin cfg0.N) (h0 : ¬ t.val % 4 = 0) (h1 : ¬ t.val % 4 = 3) (r : Fin 1024) (q : Fin 256) :
    (outsAt0 m c t.val t.isLt).2 (ix2 r q)
      = (outsAt0 m c (t.val - 1) (Nat.lt_of_le_of_lt (Nat.sub_le _ _) t.isLt)).2 (ix2 r q)
        + blockDot (co m c) (Wc m c) (rowAt (t.val / 4) r) q (t.val % 4) := by
  rw [outsAt0_B m c t h0 h1]
  dsimp only
  refine (congrFun (Body.sout_B (F := Ideal) c (grid0.coords t) (ms0_0 t) (hs0_0 t) (ms0_1 t) (hs0_1 t) (ms0_2 t) (hs0_2 t)
    scM0_0 (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2) (ix2 r q)).trans ?_
  exact update_apply m c t _ r q

/-- At the last point of a row of blocks the accumulator grows by the point's block product … -/
theorem acc_C (c : Dev nD) (t : Fin cfg0.N) (h0 : ¬ t.val % 4 = 0) (h1 : t.val % 4 = 3) (r : Fin 1024) (q : Fin 256) :
    (outsAt0 m c t.val t.isLt).2 (ix2 r q)
      = (outsAt0 m c (t.val - 1) (Nat.lt_of_le_of_lt (Nat.sub_le _ _) t.isLt)).2 (ix2 r q)
        + blockDot (co m c) (Wc m c) (rowAt (t.val / 4) r) q (t.val % 4) := by
  rw [outsAt0_C m c t h0 h1]
  dsimp only
  refine (congrFun (Body.sout_C (F := Ideal) c (grid0.coords t) (ms0_0 t) (hs0_0 t) (ms0_1 t) (hs0_1 t) (ms0_2 t) (hs0_2 t)
    scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2) (ix2 r q)).trans ?_
  exact update_apply m c t _ r q

/-- … and the output block receives the same value. -/
theorem out_C (c : Dev nD) (t : Fin cfg0.N) (h0 : ¬ t.val % 4 = 0) (h1 : t.val % 4 = 3) (r : Fin 1024) (q : Fin 256) :
    (outsAt0 m c t.val t.isLt).1 (ix2 r q)
      = (outsAt0 m c (t.val - 1) (Nat.lt_of_le_of_lt (Nat.sub_le _ _) t.isLt)).2 (ix2 r q)
        + blockDot (co m c) (Wc m c) (rowAt (t.val / 4) r) q (t.val % 4) := by
  rw [outsAt0_C m c t h0 h1]
  dsimp only
  refine (congrFun (Body.out_C (F := Ideal) c (grid0.coords t) (ms0_0 t) (hs0_0 t) (ms0_1 t) (hs0_1 t) (ms0_2 t) (hs0_2 t)
    scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2) (ix2 r q)).trans ?_
  exact update_apply m c t _ r q

/-- THE ACCUMULATOR after point `n`: the weight entry of row `1024·(n/4) + r` plus the first `n % 4 + 1` block products. -/
theorem acc_eq (c : Dev nD) : ∀ (n : ℕ) (h : n < cfg0.N) (r : Fin 1024) (q : Fin 256),
    (outsAt0 m c n h).2 (ix2 r q) = part (co m c) (Wc m c) (rowAt (n / 4) r) q (n % 4)
  | 0, h, r, q => acc_A m c ⟨0, h⟩ rfl r q
  | n + 1, h, r, q => by
    by_cases h0 : (n + 1) % 4 = 0
    · have hA := acc_A m c ⟨n + 1, h⟩ h0 r q
      rw [h0]
      exact hA
    · have ih := acc_eq c n (Nat.lt_of_succ_lt h) r q
      have e1 : (n + 1) / 4 = n / 4 := by omega
      have e2 : (n + 1) % 4 = n % 4 + 1 := by omega
      have step : (outsAt0 m c (n + 1) h).2 (ix2 r q)
          = (outsAt0 m c n (Nat.lt_of_succ_lt h)).2 (ix2 r q)
            + blockDot (co m c) (Wc m c) (rowAt ((n + 1) / 4) r) q ((n + 1) % 4) := by
        by_cases h1 : (n + 1) % 4 = 3
        · exact acc_C m c ⟨n + 1, h⟩ h0 h1 r q
        · exact acc_B m c ⟨n + 1, h⟩ h0 h1 r q
      rw [step, ih, e1, e2, part_succ]

/-- THE OUTPUT BLOCK at the last point `t` of a row of blocks: at `(r, q)` the weight entry of row `1024·(t/4) + r`
    plus that row's whole product with column `q` of the weight table. -/
theorem out_eq (c : Dev nD) (t : Fin cfg0.N) (h1 : t.val % 4 = 3) (r : Fin 1024) (q : Fin 256) :
    (outsAt0 m c t.val t.isLt).1 (ix2 r q)
      = Wc m c (ix2 (rowAt (t.val / 4) r) q)
        + ∑ k : Fin 8192, co m c (ix2 (rowAt (t.val / 4) r) k) * Wc m c (ix2 k q) := by
  have h0 : ¬ t.val % 4 = 0 := by omega
  have hpos : 0 < t.val := by omega
  have e1 : (t.val - 1) / 4 = t.val / 4 := by omega
  have e2 : (t.val - 1) % 4 = 2 := by omega
  rw [out_C m c t h0 h1 r q, acc_eq m c (t.val - 1) _ r q, e1, e2, h1, ← part_succ, part_three]

end Cert.CoProj.Accum

end
-- ==== Proof.Final.lean ====
/-
  The kernel's output array after the region: the projected table.

  Output block `(i, 0)` is written back once, after the last point of row block `i`, and holds rows
  `1024·i … 1024·i + 1023` of the projected table `Wcat + co · Wcat`; the eight blocks tile the array.
-/
import proofs.«423988_j36223754174522_3_alg».proof.Proof.Chain

noncomputable section

open scoped BigOperators
open Idealize.ShloMosaic Idealize.ShloMosaic.TcCoe Idealize.ShloMosaic.ValueIdx Idealize.SL.Sem
open Idealize.ShloMosaic.Pipeline (Dat)

namespace Cert.CoProj.Accum

open Cert.KernelIdeal Cert.KernelIdeal.Gen

variable (m : (ℓ : Loc nD τ sig) → Buf (Elt Ideal) ℓ)

/-- The projected table at row `v`, column `q`: the weight entry plus the table row's product with the weight column. -/
def tab (c : Dev nD) (v : Fin 8192) (q : Fin 256) : EReal :=
  Wc m c (ix2 v q) + ∑ k : Fin 8192, co m c (ix2 v k) * Wc m c (ix2 k q)

/-- The projected table as an array. -/
def table (c : Dev nD) : S8192x256.Idx → EReal :=
  fun j => tab m c ⟨(j 0).val, idx2_lt0 j⟩ ⟨(j 1).val, idx2_lt1 j⟩

theorem table_apply (c : Dev nD) (v : Fin 8192) (q : Fin 256) : table m c (ix2 v q) = tab m c v q := rfl

/-- Output block `t` is block `(t / 4, 0)`. -/
theorem idx2_facts : ∀ t : Fin cfg0.N, win0_2.index t 0 = t.val / 4 ∧ win0_2.index t 1 = 0 :=
  (by decide +kernel : ∀ t : Fin grid0.N, win0_2.index t 0 = t.val / 4 ∧ win0_2.index t 1 = 0)

/-- WHAT A WRITE-BACK WRITES: at the last point `t` of a row of blocks, block `(t / 4, 0)` of the projected table. -/
theorem flushed_eq (c : Dev nD) (t : Fin cfg0.N) (hf : (cfg0.win 2).flush t = true) :
    (dats m 0 c).flushed 2 t = ((cfg0.win 2).blk t).view.read (Elt Ideal) (table m c) := by
  have h3 : t.val % 4 = 3 := (flush0_2 t).mp hf
  have hN : t.val < 32 := lt_of_lt_of_eq t.isLt (show cfg0.N = 32 from N_0)
  have hi := idx2_facts t
  show (cfg0.win 2).cut (grid0.coords t) ((dats m 0 c).after 2 t) = _
  rw [after0_2]
  have e : (outsAt0 m c t.val t.isLt).1 = fun y : S1024x256.Idx =>
      tab m c (rowAt (t.val / 4) ⟨(y 0).val, idx2_lt0 y⟩) ⟨(y 1).val, idx2_lt1 y⟩ := by
    funext y
    obtain ⟨r, q, rfl⟩ : ∃ (r : Fin 1024) (q : Fin 256), y = ix2 r q := ⟨y 0, y 1, eq_ix2 y⟩
    exact out_eq m c t h3 r q
  rw [e]
  funext j
  show tab m c _ _ = table m c (((cfg0.win 2).blk t).view.emb j)
  unfold table
  have hj0 : (j 0).val < 1024 := (j 0).isLt
  congr 1
  · apply Fin.ext
    show (1024 * (t.val / 4) + (j 0).val) % 8192 = win0_2.index t 0 * 1024 + 1 * (j 0).val
    rw [hi.1]; omega
  · apply Fin.ext
    show (j 1).val = win0_2.index t 1 * 256 + 1 * (j 1).val
    rw [hi.2]; omega

/-- An index of the array is in point `t`'s block iff each coordinate is in the block's range on its axis. -/
theorem mem_blk (t : Fin cfg0.N) (i : S8192x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v3).slice (win0_2.rect t)).set ↔ _
  rw [View.set_slice_whole, Rect.mem_set_unit]
  exact Iff.rfl

/-- Every index lies in the block written back after the last point of its row block. -/
theorem cover (i : S8192x256.Idx) : ∃ t : Fin cfg0.N, (cfg0.win 2).flush t = true ∧ i ∈ ((cfg0.win 2).blk t).view.set := by
  have hi0 : (i 0).val < 8192 := (i 0).isLt
  have hi1 : (i 1).val < 256 := (i 1).isLt
  have hN : cfg0.N = 32 := N_0
  let t : Fin cfg0.N := ⟨4 * ((i 0).val / 1024) + 3, by rw [hN]; omega⟩
  have ht : t.val = 4 * ((i 0).val / 1024) + 3 := rfl
  have hi := idx2_facts t
  refine ⟨t, (flush0_2 t).mpr (by rw [ht]; omega), ?_⟩
  rw [mem_blk]
  intro a
  match a with
  | ⟨0, _⟩ =>
    show win0_2.index t 0 * 1024 ≤ (i 0).val ∧ (i 0).val < win0_2.index t 0 * 1024 + 1024
    rw [hi.1, ht]; omega
  | ⟨1, _⟩ =>
    show win0_2.index t 1 * 256 ≤ (i 1).val ∧ (i 1).val < win0_2.index t 1 * 256 + 256
    rw [hi.2]; omega

/-- THE OUTPUT ARRAY after the region is the projected table. -/
theorem final (c : Dev nD) : (dats m 0 c).arrAt 2 cfg0.N = table m c :=
  (dats m 0 c).arrAt_eq_of_cover 2 (table m c) (flushed_eq m c) (cover)

end Cert.CoProj.Accum

end
-- ==== Proof.Wcat.lean ====
/-
  The weight table the kernel streams against: the two weight matrices transposed and laid side by side,
  columns `0 … 127` the target weights, columns `128 … 255` the input weights.
-/
import proofs.«423988_j36223754174522_3_alg».proof.Proof.Gen.KernelIdeal.Frame
import Idealize.ShloMosaic.Lib.StableHlo.Run
import Idealize.ShloMosaic.Lib.ValueIdx
import Idealize.ShloMosaic.Lib.ValueLayout

noncomputable section

namespace Cert.CoProj.Wcat

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The table as the region finds it: the host lines before the region transpose the two weight matrices and lay them
    side by side along the column axis, the target weights first. -/
private theorem V_main_v2 (c : Dev nD) :
    (V m c main_v2 : S8192x256.Idx → EReal)
      = concatenate S8192x256 1
          [⟨S8192x128, transpose S8192x128 [1, 0] (m ((c : Thread nD τ).loc main_arg4)) transposes_S128x8192_S8192x128_1_0⟩,
           ⟨S8192x128, transpose S8192x128 [1, 0] (m ((c : Thread nD τ).loc main_arg3)) transposes_S128x8192_S8192x128_1_0⟩]
          concatenates_S8192x128_S8192x128_S8192x256_d1 := by
  dsimp only [Gen.V, Gen.V0]
  simp only [Gen.hostOps0, List.flatten_cons, List.flatten_nil, List.append_nil, List.cons_append, List.nil_append]
  after_results

/-- The side-by-side table as the region finds it, at row `v` and a column `h` of the left half: the target weight
    `W_target[h, v]`. -/
theorem wcat_left (c : Dev nD) (v : Fin 8192) (h : Fin 128) :
    (V m c main_v2 : S8192x256.Idx → EReal) (ix2 v ⟨h.val, by omega⟩) = m ((c : Thread nD τ).loc main_arg4) (ix2 h v) := by
  rw [V_main_v2]
  -- column h < 128 falls in the first piece, at the same coordinates; the piece is the target weights transposed
  refine Eq.trans (concatenate_pair_apply_left (t := S8192x256) (s₁ := S8192x128) (s₂ := S8192x128) (1 : Fin 2) _ _ _
    (ix2 v (⟨h.val, by omega⟩ : Fin 256)) rfl (ix2 v h) ?_) ?_
  · intro b
    match b with
    | ⟨0, _⟩ => rfl
    | ⟨1, _⟩ => rfl
  · exact transpose_ix2_apply _ _ v h

/-- … and at a column `128 + h` of the right half: the input weight `W_in[h, v]`. -/
theorem wcat_right (c : Dev nD) (v : Fin 8192) (h : Fin 128) :
    (V m c main_v2 : S8192x256.Idx → EReal) (ix2 v ⟨128 + h.val, by omega⟩) = m ((c : Thread nD τ).loc main_arg3) (ix2 h v) := by
  rw [V_main_v2]
  -- column 128 + h falls in the second piece, at column h; the piece is the input weights transposed
  refine Eq.trans (concatenate_pair_apply_right (t := S8192x256) (s₁ := S8192x128) (s₂ := S8192x128) (1 : Fin 2) _ _ _
    (ix2 v (⟨128 + h.val, by omega⟩ : Fin 256)) rfl rfl (ix2 v h) ?_ ?_) ?_
  · intro b hb
    match b, hb with
    | ⟨0, _⟩, _ => rfl
    | ⟨1, _⟩, hb => exact absurd rfl hb
  · show h.val + 128 = 128 + h.val
    omega
  · exact transpose_ix2_apply _ _ v h

end Cert.CoProj.Wcat

end
-- ==== Proof.Spec.lean ====
/-
  The mathematics both programs compute, stated once over plain functions.

  For a table `co` of 8192 rows and a weight matrix `W` of 128 rows, the projected row `r` at feature `h` is
      W[h, r] + ∑ₖ co[r, k] · W[h, k]
  (the one-hot term plus the co-occurrence row's product with the weights). Both programs select the row `r` by an
  integer word: a negative word is wrapped once by the table height, and the start index of the row gather is then read
  signed and clamped into the table.
-/
import Idealize.ShloMosaic.PureOps.Ideal
import Idealize.ShloMosaic.Lib.ValueIdx

noncomputable section

open scoped BigOperators

namespace Cert.CoProj

open Idealize.ShloMosaic Idealize.ShloMosaic.ValueIdx

/-- An index word inside the table's range, Python style: `-8192 ≤ w < 8192`. -/
def InRange (w : BitVec 32) : Prop := -8192 ≤ w.toInt ∧ w.toInt < 8192

/-- A negative index word wraps once by the table height. -/
def wrap (w : BitVec 32) : BitVec 32 := Scalar.select (IntOp.cmpi .slt w 0#32) (IntOp.addi w 8192#32) w

/-- The row a start-index word selects: read signed, clamped into the table. -/
def rowOf (w : BitVec 32) : Fin 8192 := ⟨min w.toInt.toNat (8192 - 1), by omega⟩

/-- The projected row `r` at feature `h`: the weight column plus the co-occurrence row times the weights. -/
def proj (co : (⟨2, ![8192, 8192]⟩ : Shape).Idx → EReal) (W : (⟨2, ![128, 8192]⟩ : Shape).Idx → EReal)
    (r : Fin 8192) (h : Fin 128) : EReal :=
  W (ix2 h r) + ∑ k : Fin 8192, co (ix2 r k) * W (ix2 h k)

end Cert.CoProj

end
-- ==== Proof.IndexWord.lean ====
/-
  Index words: a word in the table's range, wrapped once when negative, lies in `[0, 8191]`.
-/
import proofs.«423988_j36223754174522_3_alg».proof.Proof.Spec

namespace Cert.CoProj

open Idealize.ShloMosaic

/-- The signed value of a wrapped in-range word lies in `[0, 8191]`: a negative word `w ≥ -8192` becomes
    `w + 8192`, which does not overflow 32 bits, and a nonnegative word `w < 8192` is kept. -/
theorem wrap_toInt {w : BitVec 32} (h : InRange w) : 0 ≤ (wrap w).toInt ∧ (wrap w).toInt ≤ 8191 := by
  obtain ⟨h1, h2⟩ := h
  have h0 : (0#32 : BitVec 32).toInt = 0 := by decide
  have h8 : (8192#32 : BitVec 32).toInt = 8192 := by decide
  unfold wrap IntOp.cmpi IntOp.addi Scalar.select
  by_cases hs : w.slt 0#32 = true
  · -- negative: the sum `w + 8192` lies in `[0, 8192)`, inside the balanced range of 32-bit words
    have hneg : w.toInt < 0 := by
      have := BitVec.slt_iff_toInt_lt.1 hs
      omega
    simp only [hs, BitVec.ofBool_true, if_true]
    rw [BitVec.toInt_add, h8]
    constructor <;> (simp only [Int.bmod]; omega)
  · -- nonnegative: the word is kept
    have hnn : 0 ≤ w.toInt := by
      have : ¬ (w.toInt < (0#32 : BitVec 32).toInt) := fun hlt => hs (BitVec.slt_iff_toInt_lt.2 hlt)
      omega
    have hs' : w.slt 0#32 = false := by simpa using hs
    simp only [hs', BitVec.ofBool_false]
    rw [if_neg (by decide)]
    omega

/-- A word in range, wrapped, is not negative. -/
theorem wrap_sge {w : BitVec 32} (h : InRange w) : IntOp.cmpi .sge (wrap w) 0#32 = 1#1 := by
  have hlo := (wrap_toInt h).1
  have h0 : (0#32 : BitVec 32).toInt = 0 := by decide
  have hb : (0#32 : BitVec 32).sle (wrap w) = true := BitVec.sle_iff_toInt_le.2 (by omega)
  unfold IntOp.cmpi
  simp only [hb, BitVec.ofBool_true]
  rfl

/-- A word in range, wrapped, is at most the last row. -/
theorem wrap_sle {w : BitVec 32} (h : InRange w) : IntOp.cmpi .sle (wrap w) 8191#32 = 1#1 := by
  have hhi := (wrap_toInt h).2
  have h8 : (8191#32 : BitVec 32).toInt = 8191 := by decide
  have hb : (wrap w).sle 8191#32 = true := BitVec.sle_iff_toInt_le.2 (by omega)
  unfold IntOp.cmpi
  simp only [hb, BitVec.ofBool_true]
  rfl

end Cert.CoProj
-- ==== Proof.LibSegment.lean ====
import Idealize.ShloMosaic.PureOps.Ideal
import Idealize.ShloMosaic.Lib.ValueIdx
import Idealize.ShloMosaic.Lib.StableHlo.Predicate
import Mathlib.Algebra.BigOperators.Group.Finset.Basic

/-!
# Row-wise scatter-add and row gather, read at an index

Two index-level reads of the host operations on a rank-2 table whose ROWS are addressed by an [E × 1] column of
start indices.

* A scatter with an additive body whose updates are whole rows: update row e is added into the operand row named
  by the e-th start index, read as a signed integer; a row whose start index is negative or past the last row is
  dropped. At (n, k) the result is the operand plus the sum, over the update rows whose start index is n, of
  their k-th entry.
* A gather of whole rows: result row e is the operand row named by the e-th start index, read signed and clamped
  into the table.
-/

noncomputable section

open scoped BigOperators

namespace Cert.Segment

open Idealize.ShloMosaic Idealize.ShloMosaic.ValueIdx
open Idealize.ShloMosaic.StableHlo.Predicate (ixP)

/-! ## The scatter: where update (e, k') lands -/

section Scatter

variable {N C E w : Nat} (d : ScatterDims ⟨2, ![N, C]⟩ ⟨2, ![E, 1]⟩ ⟨2, ![E, C]⟩)

/-- A coordinate of a rank-2 index on an axis known to be the first. -/
private theorem ix2_val_of_eq_zero {n0 n1 : Nat} (a : Fin n0) (b : Fin n1) (X : Fin 2) (hX : X = 0) :
    ((ix2 a b) X).val = a.val := by
  subst hX; rfl

/-- A coordinate of a rank-2 index on an axis known to be the second. -/
private theorem ix2_val_of_eq_one {n0 n1 : Nat} (a : Fin n0) (b : Fin n1) (X : Fin 2) (hX : X = 1) :
    ((ix2 a b) X).val = b.val := by
  subst hX; rfl

/-- An axis of a rank-2 shape that is not the second is the first. -/
private theorem fin2_eq_zero {X : Fin 2} (h : X ≠ 1) : X = 0 :=
  match X, h with
  | ⟨0, _⟩, _ => rfl
  | ⟨1, _⟩, h => absurd rfl h

/-- With the window on the updates' axis 1, the only update scatter axis is axis 0. -/
private theorem uScatter_eq_zero (huw : d.updateWindowDims = [1]) (X : Fin 2) (hX : X ∈ d.uScatter) : X = 0 := by
  have h2 := (List.mem_filter.1 hX).2
  rw [huw] at h2
  exact fin2_eq_zero (by simpa using h2)

/-- The start-indices index update (e, k') reads its one start component at: row e of the column. -/
theorem siIdx_rows (hsd : d.scatterDimsToOperandDims = [0]) (huw : d.updateWindowDims = [1]) (hivd : d.indexVectorDim = 1)
    (e : Fin E) (k' : Fin C) (c : Fin d.scatterDimsToOperandDims.length) :
    d.siIdx (ix2 e k') c = ixP e := by
  funext b
  match b with
  | ⟨0, _⟩ =>
    -- the one update scatter axis is axis 0 of the updates (axis 1 is the window axis); it reads the column's axis 0
    unfold ScatterDims.siIdx
    rw [dif_neg (by rw [hivd]; simp)]
    unfold ScatterDims.siCoord
    apply Fin.ext
    simp only [Fin.val_cast]
    refine ix2_val_of_eq_zero e k' _ ?_
    exact uScatter_eq_zero d huw _ (List.getElem_mem _)
  | ⟨1, _⟩ =>
    unfold ScatterDims.siIdx
    rw [dif_pos (by rw [hivd])]
    apply Fin.ext
    show c.val = 0
    have hl : d.scatterDimsToOperandDims.length = 1 := by rw [hsd]; rfl
    have := c.isLt
    omega

/-- On the operand's axis 0 the window of update (e, k') starts at the start index of row e, read signed … -/
theorem start_zero (hsd : d.scatterDimsToOperandDims = [0]) (huw : d.updateWindowDims = [1]) (hivd : d.indexVectorDim = 1)
    (idx : IVec ⟨2, ![E, 1]⟩ w) (e : Fin E) (k' : Fin C) :
    d.start (ix2 e k') idx (0 : Fin 2) = (idx (ixP e)).toInt := by
  unfold ScatterDims.start
  rw [dif_pos (show (0 : Fin 2) ∈ d.scatterDimsToOperandDims by rw [hsd]; exact List.mem_singleton.mpr rfl),
    siIdx_rows d hsd huw hivd]

/-- … and on axis 1, which the start index does not name, at 0. -/
theorem start_one (hsd : d.scatterDimsToOperandDims = [0]) (idx : IVec ⟨2, ![E, 1]⟩ w) (e : Fin E) (k' : Fin C) :
    d.start (ix2 e k') idx (1 : Fin 2) = 0 := by
  unfold ScatterDims.start
  rw [dif_neg (by rw [hsd]; simp)]

/-- The operand's axis 0 is inserted: the window coordinate there is 0 … -/
theorem window_zero (hiw : d.insertedWindowDims = [0]) (e : Fin E) (k' : Fin C) :
    d.window (ix2 e k') (0 : Fin 2) = 0 := by
  unfold ScatterDims.window
  rw [dif_neg]
  intro h
  have h2 := (List.mem_filter.1 h).2
  rw [hiw] at h2
  simp at h2

/-- … and on axis 1, the one kept axis, it is the update's column k'. -/
theorem window_one (huw : d.updateWindowDims = [1]) (hiw : d.insertedWindowDims = [0]) (e : Fin E) (k' : Fin C) :
    d.window (ix2 e k') (1 : Fin 2) = k'.val := by
  unfold ScatterDims.window
  have hmem : (1 : Fin 2) ∈ d.sKept := List.mem_filter.2 ⟨List.mem_finRange _, by rw [hiw]; simp⟩
  rw [dif_pos hmem]
  refine ix2_val_of_eq_one e k' _ ?_
  have hall : ∀ X ∈ d.updateWindowDims, X = 1 := by
    intro X hX; rw [huw] at hX; exact List.mem_singleton.1 hX
  exact hall _ (List.getElem_mem _)

/-- WHERE AN UPDATE LANDS. Update (e, k') lands on (n, k) exactly when the start index of row e, read signed, is n and
    k' = k; with a start index that is negative or at least N it lands nowhere. -/
theorem resultIdx?_rows (huw : d.updateWindowDims = [1]) (hiw : d.insertedWindowDims = [0])
    (hsd : d.scatterDimsToOperandDims = [0]) (hivd : d.indexVectorDim = 1)
    (idx : IVec ⟨2, ![E, 1]⟩ w) (e : Fin E) (k' : Fin C) (n : Fin N) (k : Fin C) :
    d.resultIdx? (ix2 e k') idx = some (ix2 n k) ↔ (idx (ixP e)).toInt = (n.val : ℤ) ∧ k' = k := by
  have hs0 := start_zero d hsd huw hivd idx e k'
  have hs1 := start_one d hsd idx e k'
  have hw0 := window_zero d hiw e k'
  have hw1 := window_one d huw hiw e k'
  have hn := n.isLt
  have hk' := k'.isLt
  unfold ScatterDims.resultIdx?
  constructor
  · intro h
    split at h
    · next hc =>
      have h' := Option.some.inj h
      have h0 : (d.start (ix2 e k') idx (0 : Fin 2) + (d.window (ix2 e k') (0 : Fin 2) : ℤ)).toNat = n.val :=
        congrArg (fun f : (⟨2, ![N, C]⟩ : Shape).Idx => (f (0 : Fin 2)).val) h'
      have h1 : (d.start (ix2 e k') idx (1 : Fin 2) + (d.window (ix2 e k') (1 : Fin 2) : ℤ)).toNat = k.val :=
        congrArg (fun f : (⟨2, ![N, C]⟩ : Shape).Idx => (f (1 : Fin 2)).val) h'
      have hc0 := (hc (0 : Fin 2)).1
      rw [hs0, hw0] at h0 hc0
      rw [hs1, hw1] at h1
      exact ⟨by omega, Fin.ext (by omega)⟩
    · exact absurd h (by simp)
  · rintro ⟨h0, rfl⟩
    have hc : ∀ a, 0 ≤ d.start (ix2 e k') idx a + (d.window (ix2 e k') a : ℤ)
        ∧ d.start (ix2 e k') idx a + (d.window (ix2 e k') a : ℤ) < ((⟨2, ![N, C]⟩ : Shape).size a : ℤ) := by
      refine Fin.forall_fin_two.2 ⟨?_, ?_⟩
      · rw [hs0, hw0]
        show 0 ≤ _ ∧ _ < (N : ℤ)
        omega
      · rw [hs1, hw1]
        show 0 ≤ _ ∧ _ < (C : ℤ)
        omega
    rw [dif_pos hc]
    congr 1
    refine funext (Fin.forall_fin_two.2 ⟨?_, ?_⟩)
    · apply Fin.ext
      show (d.start (ix2 e k') idx (0 : Fin 2) + (d.window (ix2 e k') (0 : Fin 2) : ℤ)).toNat = n.val
      rw [hs0, hw0]; omega
    · apply Fin.ext
      show (d.start (ix2 e k') idx (1 : Fin 2) + (d.window (ix2 e k') (1 : Fin 2) : ℤ)).toNat = k'.val
      rw [hs1, hw1]; omega

/-- THE SCATTER READ AT (n, k): the operand there plus the k-th entries of the update rows whose start index, read
    signed, is n. (The update indices landing on (n, k) are the (e, k) with start index n: one per such row e.) -/
theorem hostScatterAdd_rows (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd d x idx upd (ix2 n k)
      = x (ix2 n k) + ∑ e ∈ Finset.univ.filter (fun e : Fin E => (idx (ixP e)).toInt = (n.val : ℤ)), upd (ix2 e k) := by
  unfold Ideal.hostScatterAdd
  congr 1
  -- every update index is (e, k'); it is in the left sum exactly when its start index is n and k' = k
  have hrow : ∀ j : (⟨2, ![E, C]⟩ : Shape).Idx,
      d.resultIdx? j idx = some (ix2 n k) ↔ (idx (ixP (j 0))).toInt = (n.val : ℤ) ∧ j 1 = k := by
    intro j
    obtain ⟨a, b, rfl⟩ : ∃ a b, j = ix2 a b := ⟨_, _, eq_ix2 j⟩
    exact resultIdx?_rows d huw hiw hsd hivd idx a b n k
  refine Finset.sum_nbij' (fun j => j 0) (fun e => ix2 e k) ?_ ?_ ?_ ?_ ?_
  · intro j hj
    exact Finset.mem_filter.2 ⟨Finset.mem_univ _, ((hrow j).1 (Finset.mem_filter.1 hj).2).1⟩
  · intro e he
    exact Finset.mem_filter.2 ⟨Finset.mem_univ _, (hrow (ix2 e k)).2 ⟨(Finset.mem_filter.1 he).2, rfl⟩⟩
  · intro j hj
    have hk := ((hrow j).1 (Finset.mem_filter.1 hj).2).2
    obtain ⟨a, b, rfl⟩ : ∃ a b, j = ix2 a b := ⟨_, _, eq_ix2 j⟩
    have hb : b = k := hk
    subst hb; rfl
  · intro e _
    rfl
  · intro j hj
    have hk := ((hrow j).1 (Finset.mem_filter.1 hj).2).2
    obtain ⟨a, b, rfl⟩ : ∃ a b, j = ix2 a b := ⟨_, _, eq_ix2 j⟩
    have hb : b = k := hk
    subst hb; rfl

end Scatter

/-! ## The gather of rows -/

section Gather

variable {α : Type} {N C E w : Nat} (d : GatherDims ⟨2, ![N, C]⟩ ⟨2, ![E, 1]⟩ ⟨2, ![E, C]⟩)

/-- With the offset on the result's axis 1, the only batch axis of the result is axis 0. -/
private theorem batchDims_eq_zero (hoff : d.offsetDims = [1]) (X : Fin 2) (hX : X ∈ d.batchDims) : X = 0 := by
  have h2 := (List.mem_filter.1 hX).2
  rw [hoff] at h2
  exact fin2_eq_zero (by simpa using h2)

/-- The start-indices index result (e, k) reads its one start component at: row e of the column. -/
theorem gather_siIdx_rows (hoff : d.offsetDims = [1]) (hsim : d.startIndexMap = [0]) (hivd : d.indexVectorDim = 1)
    (e : Fin E) (k : Fin C) (c : Fin d.startIndexMap.length) :
    d.siIdx (ix2 e k) c = ixP e := by
  funext b
  match b with
  | ⟨0, _⟩ =>
    -- the result's one batch axis is its axis 0 (axis 1 is the offset axis); it reads the column's axis 0
    unfold GatherDims.siIdx
    rw [dif_neg (by rw [hivd]; simp)]
    unfold GatherDims.siCoord
    apply Fin.ext
    simp only [Fin.val_cast]
    exact ix2_val_of_eq_zero e k _ (batchDims_eq_zero d hoff _ (List.getElem_mem _))
  | ⟨1, _⟩ =>
    unfold GatherDims.siIdx
    rw [dif_pos (by rw [hivd])]
    apply Fin.ext
    show c.val = 0
    have hl : d.startIndexMap.length = 1 := by rw [hsim]; rfl
    have := c.isLt
    omega

/-- THE GATHER READ AT (e, k): the operand's row named by the start index of e, read signed and clamped into
    [0, N − 1], at column k. (Axis 0 of the operand is collapsed and start-indexed, with slice size 1 there, so the
    row is the clamped start alone; axis 1 is not start-indexed, so the column is the result's offset coordinate.) -/
theorem gather_rows (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (k : Fin C) (hN : 0 < N) :
    Host.gather d x idx (ix2 e k) = x (ix2 ⟨min (idx (ixP e)).toInt.toNat (N - 1), by omega⟩ k) := by
  unfold Host.gather
  congr 1
  have hb : ∀ a : Fin 2, a ∉ d.operandBatchingDims := fun a => by rw [hob]; exact List.not_mem_nil
  refine funext (Fin.forall_fin_two.2 ⟨?_, ?_⟩)
  · -- the row
    apply Fin.ext
    show d.start (ix2 e k) idx (0 : Fin 2) + d.batchCoord (ix2 e k) (0 : Fin 2) + d.offCoord (ix2 e k) (0 : Fin 2)
      = min (idx (ixP e)).toInt.toNat (N - 1)
    have hk0 : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk0, Nat.add_zero]
    unfold GatherDims.start
    rw [dif_pos hm, gather_siIdx_rows d hoff hsim hivd, hsl]
    rfl
  · -- the column
    apply Fin.ext
    show d.start (ix2 e k) idx (1 : Fin 2) + d.batchCoord (ix2 e k) (1 : Fin 2) + d.offCoord (ix2 e k) (1 : Fin 2) = k.val
    have hk1 : (1 : Fin 2) ∈ d.sKept := by rw [GatherDims.mem_sKept, hcoll, hob]; simp
    have hs1 : d.start (ix2 e k) idx (1 : Fin 2) = 0 := by
      unfold GatherDims.start
      rw [dif_neg (by rw [hsim]; simp)]
    rw [hs1, GatherDims.batchCoord_eq_zero _ _ _ (hb 1), Nat.zero_add]
    unfold GatherDims.offCoord
    rw [dif_pos hk1]
    refine ix2_val_of_eq_one e k _ ?_
    have hall : ∀ X ∈ d.offsetDims, X = 1 := by
      intro X hX; rw [hoff] at hX; exact List.mem_singleton.1 hX
    exact hall _ (List.getElem_mem _)

end Gather

end Cert.Segment

end
-- ==== Proof.LibGatherRows3.lean ====
import Idealize.ShloMosaic.PureOps.ShapeOps
import Idealize.ShloMosaic.Lib.ValueIdx

/-!
# A gather of whole rows addressed by a rank-3 column of start indices

For a table `x : [N, C]` and an `[A, B]` array of row indices, `x[idx]` prints as a `stablehlo.gather` whose
start indices are the `[A, B, 1]` array of the indices, with operand axis 0 collapsed and start-indexed, the offset
on the result's axis 2, no batching axes and the index vector on axis 2. Result element `(a, b, k)` is the table at
`(row, k)`, where `row` is the `(a, b)`-th start index read as a signed integer and clamped into `[0, N − 1]`.
-/

namespace Cert.Segment

open Idealize.ShloMosaic Idealize.ShloMosaic.ValueIdx

/-- A coordinate of a rank-3 index on an axis known to be the first. -/
private theorem ix3_val_of_eq_zero {n0 n1 n2 : Nat} (a : Fin n0) (b : Fin n1) (c : Fin n2) (X : Fin 3) (hX : X = 0) :
    ((ix3 a b c) X).val = a.val := by
  subst hX; rfl

/-- A coordinate of a rank-3 index on an axis known to be the second. -/
private theorem ix3_val_of_eq_one {n0 n1 n2 : Nat} (a : Fin n0) (b : Fin n1) (c : Fin n2) (X : Fin 3) (hX : X = 1) :
    ((ix3 a b c) X).val = b.val := by
  subst hX; rfl

/-- A coordinate of a rank-3 index on an axis known to be the third. -/
private theorem ix3_val_of_eq_two {n0 n1 n2 : Nat} (a : Fin n0) (b : Fin n1) (c : Fin n2) (X : Fin 3) (hX : X = 2) :
    ((ix3 a b c) X).val = c.val := by
  subst hX; rfl

/-- In two equal lists, the entry of one at the position an element has in the other is that element. -/
private theorem getElem_idxOf_of_eq (l l' : List (Fin 3)) (h : l = l') (x : Fin 3) (hx : List.idxOf x l' < l.length) :
    l[List.idxOf x l'] = x := by
  subst h; exact List.getElem_idxOf hx

section Gather

variable {N C A B w : Nat} (d : GatherDims ⟨2, ![N, C]⟩ ⟨3, ![A, B, 1]⟩ ⟨3, ![A, B, C]⟩)

/-- With the offset on the result's axis 2 and the index vector on the start indices' axis 2, the result's batch
    axes and the start indices' axes that carry them are the same two axes, 0 and 1, in the same order. -/
private theorem batchDims_eq_siKept (hoff : d.offsetDims = [2]) (hivd : d.indexVectorDim = 2) :
    (d.batchDims : List (Fin 3)) = (d.siKept : List (Fin 3)) := by
  have h1 : (d.batchDims : List (Fin 3)) = [0, 1] := by
    show (List.finRange 3).filter (fun X => decide (X ∉ d.offsetDims)) = [0, 1]
    rw [hoff]; rfl
  have h2 : (d.siKept : List (Fin 3)) = [0, 1] := by
    show (List.finRange 3).filter (fun X : Fin 3 => decide (X.val ≠ d.indexVectorDim)) = [0, 1]
    rw [hivd]; rfl
  rw [h1, h2]

/-- The start-indices index result `(a, b, k)` reads its one start component at: entry `(a, b)` of the column. -/
theorem gather_siIdx_rows3 (hoff : d.offsetDims = [2]) (hsim : d.startIndexMap = [0]) (hivd : d.indexVectorDim = 2)
    (a : Fin A) (b : Fin B) (k : Fin C) (c : Fin d.startIndexMap.length) :
    d.siIdx (ix3 a b k) c = ix3 a b (0 : Fin 1) := by
  have hbs := batchDims_eq_siKept d hoff hivd
  funext b'
  match b' with
  | ⟨0, _⟩ =>
    -- a batch axis of the result reads the start indices' axis in the same position: axis 0 reads axis 0
    unfold GatherDims.siIdx
    rw [dif_neg (by rw [hivd]; simp)]
    unfold GatherDims.siCoord
    apply Fin.ext
    simp only [Fin.val_cast]
    exact ix3_val_of_eq_zero a b k _ (getElem_idxOf_of_eq _ _ hbs _ _)
  | ⟨1, _⟩ =>
    unfold GatherDims.siIdx
    rw [dif_neg (by rw [hivd]; simp)]
    unfold GatherDims.siCoord
    apply Fin.ext
    simp only [Fin.val_cast]
    exact ix3_val_of_eq_one a b k _ (getElem_idxOf_of_eq _ _ hbs _ _)
  | ⟨2, _⟩ =>
    unfold GatherDims.siIdx
    rw [dif_pos (by rw [hivd])]
    apply Fin.ext
    show c.val = 0
    have hl : d.startIndexMap.length = 1 := by rw [hsim]; rfl
    have := c.isLt
    omega

end Gather

/-- THE GATHER READ AT `(a, b, k)`: the operand's row named by the start index at `(a, b)`, read signed and clamped
    into `[0, N − 1]`, at column `k`. The five hypotheses are the printed dimension numbers, each by `rfl` at a
    generated record. -/
theorem gather_rows3 {α : Type} {N C A B w : Nat}
    (d : GatherDims ⟨2, ![N, C]⟩ ⟨3, ![A, B, 1]⟩ ⟨3, ![A, B, C]⟩)
    (hoff : d.offsetDims = [2]) (hcoll : d.collapsedSliceDims = [0]) (hob : d.operandBatchingDims = [])
    (hsim : d.startIndexMap = [0]) (hivd : d.indexVectorDim = 2)
    (x : (⟨2, ![N, C]⟩ : Shape).Idx → α) (idx : IVec ⟨3, ![A, B, 1]⟩ w) (a : Fin A) (b : Fin B) (k : Fin C) (hN : 0 < N) :
    Host.gather d x idx (ix3 a b k)
      = x (ix2 ⟨min (idx (ix3 a b (0 : Fin 1))).toInt.toNat (N - 1), by omega⟩ k) := by
  unfold Host.gather
  congr 1
  have hb : ∀ r : Fin 2, r ∉ d.operandBatchingDims := fun r => by rw [hob]; exact List.not_mem_nil
  refine funext (Fin.forall_fin_two.2 ⟨?_, ?_⟩)
  · -- the row: operand axis 0 is collapsed and start-indexed with slice size 1, so it is the clamped start alone
    apply Fin.ext
    show d.start (ix3 a b k) idx (0 : Fin 2) + d.batchCoord (ix3 a b k) (0 : Fin 2) + d.offCoord (ix3 a b k) (0 : Fin 2)
      = min (idx (ix3 a b (0 : Fin 1))).toInt.toNat (N - 1)
    have hk0 : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk0, Nat.add_zero]
    unfold GatherDims.start
    rw [dif_pos hm, gather_siIdx_rows3 d hoff hsim hivd, hsl]
    rfl
  · -- the column: operand axis 1 is not start-indexed, so it is the result's coordinate on its one offset axis
    apply Fin.ext
    show d.start (ix3 a b k) idx (1 : Fin 2) + d.batchCoord (ix3 a b k) (1 : Fin 2) + d.offCoord (ix3 a b k) (1 : Fin 2)
      = k.val
    have hk1 : (1 : Fin 2) ∈ d.sKept := by rw [GatherDims.mem_sKept, hcoll, hob]; simp
    have hs1 : d.start (ix3 a b k) idx (1 : Fin 2) = 0 := by
      unfold GatherDims.start
      rw [dif_neg (by rw [hsim]; simp)]
    rw [hs1, GatherDims.batchCoord_eq_zero _ _ _ (hb 1), Nat.zero_add]
    unfold GatherDims.offCoord
    rw [dif_pos hk1]
    refine ix3_val_of_eq_two a b k _ ?_
    have hall : ∀ X ∈ d.offsetDims, X = 2 := by
      intro X hX; rw [hoff] at hX; exact List.mem_singleton.1 hX
    exact hall _ (List.getElem_mem _)

end Cert.Segment
-- ==== Proof.Tail.lean ====
/-
  The host operations after the kernel: the two column halves of the projected table are sliced apart and rows are
  taken from each by the index words (a take that fills with a junk value where the wrapped word leaves the table).
  With every index word in range no entry is filled, and each result entry is the projected table at the selected row.
-/
import proofs.«423988_j36223754174522_3_alg».proof.Proof.Gen.KernelIdeal.Frame
import proofs.«423988_j36223754174522_3_alg».proof.Proof.Spec
import proofs.«423988_j36223754174522_3_alg».proof.Proof.IndexWord
import proofs.«423988_j36223754174522_3_alg».proof.Proof.LibSegment
import proofs.«423988_j36223754174522_3_alg».proof.Proof.LibGatherRows3
import Idealize.ShloMosaic.Lib.StableHlo.Run
import Idealize.ShloMosaic.Lib.ReduceAll
import Idealize.ShloMosaic.Lib.ValueLayout

noncomputable section

namespace Cert.CoProj.Tail

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-! ## Pointwise reads of the take's stages -/

/-- A left fold by `and` over `i1` words that starts at 1 and meets only 1s ends at 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_ones f l fun n hn => h n (List.mem_cons_of_mem _ hn)

/-- A reduction by `and` from the constant 1 of an array that is 1 everywhere is 1. -/
theorem reduce_andi_ones {s t u : Shape} {axes : List (Fin s.rank)} (x : s.Idx → BitVec 1) (init : u.Idx → BitVec 1)
    (h : s.ReducesTo axes t) (hu : 0 < u.numel) (j : t.Idx) (hi : init (Shape.Idx.first hu) = 1#1)
    (hx : ∀ i, x i = 1#1) : Host.reduce IntOp.andi x init h hu j = 1#1 := by
  rw [Host.reduce_eq_foldl, hi]
  exact foldl_andi_ones x _ fun n _ => hx n

/-- The index words with each negative one shifted up by the table height. -/
def wrapVec {s : Shape} (h0 : S_.BroadcastsInDim s ![]) (idx : IVec s 32) : IVec s 32 :=
  select (cmpi .slt idx (broadcastInDim s ![] h0 (constantI S_ 32 0#32)))
    (addi idx (broadcastInDim s ![] h0 (constantI S_ 32 8192#32))) idx

theorem wrapVec_apply {s : Shape} (h0 : S_.BroadcastsInDim s ![]) (idx : IVec s 32) (j : s.Idx) :
    wrapVec h0 idx j = wrap (idx j) := rfl

/-- The mask of the start indices that lie in the table: not negative and at most the last row. -/
def inTable {s : Shape} (v lo hi : IVec s 32) : IVec s 1 := andi (cmpi .sge v lo) (cmpi .sle v hi)

theorem inTable_apply {s : Shape} (v lo hi : IVec s 32) (j : s.Idx) :
    inTable v lo hi j = IntOp.andi (IntOp.cmpi .sge (v j) (lo j)) (IntOp.cmpi .sle (v j) (hi j)) := rfl

/-- A wrapped word of a word in range passes both tests. -/
theorem inTable_wrap {w : BitVec 32} (h : InRange w) :
    IntOp.andi (IntOp.cmpi .sge (wrap w) 0#32) (IntOp.cmpi .sle (wrap w) 8191#32) = 1#1 := by
  rw [wrap_sge h, wrap_sle h]; decide

/-! ## The take of rows by a vector of index words -/

/-- The wrapped words as the column of start indices. -/
def start1 (idx : IVec S1024 32) : IVec S1024x1 32 :=
  broadcastInDim S1024x1 ![0] bcast_S1024_S1024x1_0 (wrapVec bcast_S_S1024 idx)

/-- The take's mask: for each word, whether its start index lies in the table. -/
def mask1 (idx : IVec S1024 32) : IVec S1024 1 :=
  Host.reduce IntOp.andi
    (inTable (start1 idx) (broadcastInDim S1024x1 ![] bcast_S_S1024x1 (constantI S_ 32 0#32))
      (broadcastInDim S1024x1 ![0, 1] bcast_S1x1_S1024x1_0_1 (broadcastInDim S1x1 ![1] bcast_S1_S1x1_1 (constantI S1 32 8191#32))))
    (constantI S_ 1 1#1) reducesTo_S1024x1_S1024_d1 h_S_

/-- The take: the gathered row where the mask holds, the fill value elsewhere. -/
def take1 (x : S8192x128.Idx → EReal) (idx : IVec S1024 32) : S1024x128.Idx → EReal :=
  select (broadcastInDim S1024x128 ![0] bcast_S1024_S1024x128_0 (mask1 idx))
    (Host.gather gather_S8192x128_S1024x1_S1024x128_1_0_n_n_0_1_1128 x (start1 idx))
    (broadcastInDim S1024x128 ![] bcast_S_S1024x128 (constant (F := Ideal) S_ .f32 0x7FC00000#32))

theorem start1_apply (idx : IVec S1024 32) (i : S1024x1.Idx) : start1 idx i = wrap (idx (ix1 (i 0))) := by
  unfold start1
  refine (broadcastInDim_apply _ _ _ i (ix1 (i 0)) fun a => ?_).trans (wrapVec_apply _ _ _)
  match a with
  | ⟨0, _⟩ => rfl

theorem mask1_apply (idx : IVec S1024 32) (hr : ∀ b : Fin 1024, InRange (idx (ix1 b))) (j : S1024.Idx) :
    mask1 idx j = 1#1 := by
  unfold mask1
  refine reduce_andi_ones _ _ _ _ _ rfl fun i => ?_
  rw [inTable_apply, start1_apply]
  exact inTable_wrap (hr _)

/-- With every word in range, the take at `(b, k)` is the table at the row the wrapped word selects. -/
theorem take1_apply (x : S8192x128.Idx → EReal) (idx : IVec S1024 32) (hr : ∀ b : Fin 1024, InRange (idx (ix1 b)))
    (b : Fin 1024) (k : Fin 128) : take1 x idx (ix2 b k) = x (ix2 (rowOf (wrap (idx (ix1 b)))) k) := by
  have hm : broadcastInDim S1024x128 ![0] bcast_S1024_S1024x128_0 (mask1 idx) (ix2 b k) = 1#1 :=
    (broadcastInDim_apply _ _ _ _ (ix1 b) fun a => by match a with | ⟨0, _⟩ => rfl).trans (mask1_apply idx hr _)
  unfold take1
  rw [select_apply, hm, select_one]
  refine (Cert.Segment.gather_rows _ rfl rfl rfl rfl rfl x _ b k (by decide)).trans ?_
  refine congrArg (fun r => x (ix2 r k)) (Fin.ext ?_)
  exact congrArg (fun w : BitVec 32 => min w.toInt.toNat (8192 - 1)) (start1_apply idx _)

/-! ## The take of rows by a matrix of index words -/

/-- The wrapped words as the rank-3 column of start indices. -/
def start3 (idx : IVec S8x1024 32) : IVec S8x1024x1 32 :=
  broadcastInDim S8x1024x1 ![0, 1] bcast_S8x1024_S8x1024x1_0_1 (wrapVec bcast_S_S8x1024 idx)

/-- The take's mask: for each word, whether its start index lies in the table. -/
def mask3 (idx : IVec S8x1024 32) : IVec S8x1024 1 :=
  Host.reduce IntOp.andi
    (inTable (start3 idx) (broadcastInDim S8x1024x1 ![] bcast_S_S8x1024x1 (constantI S_ 32 0#32))
      (broadcastInDim S8x1024x1 ![0, 1, 2] bcast_S1x1x1_S8x1024x1_0_1_2 (broadcastInDim S1x1x1 ![2] bcast_S1_S1x1x1_2 (constantI S1 32 8191#32))))
    (constantI S_ 1 1#1) reducesTo_S8x1024x1_S8x1024_d2 h_S_

/-- The take: the gathered row where the mask holds, the fill value elsewhere. -/
def take3 (x : S8192x128.Idx → EReal) (idx : IVec S8x1024 32) : S8x1024x128.Idx → EReal :=
  select (broadcastInDim S8x1024x128 ![0, 1] bcast_S8x1024_S8x1024x128_0_1 (mask3 idx))
    (Host.gather gather_S8192x128_S8x1024x1_S8x1024x128_2_0_n_n_0_2_1128 x (start3 idx))
    (broadcastInDim S8x1024x128 ![] bcast_S_S8x1024x128 (constant (F := Ideal) S_ .f32 0x7FC00000#32))

theorem start3_apply (idx : IVec S8x1024 32) (i : S8x1024x1.Idx) : start3 idx i = wrap (idx (ix2 (i 0) (i 1))) := by
  unfold start3
  refine (broadcastInDim_apply _ _ _ i (ix2 (i 0) (i 1)) fun a => ?_).trans (wrapVec_apply _ _ _)
  match a with
  | ⟨0, _⟩ => rfl
  | ⟨1, _⟩ => rfl

theorem mask3_apply (idx : IVec S8x1024 32) (hr : ∀ (a : Fin 8) (b : Fin 1024), InRange (idx (ix2 a b))) (j : S8x1024.Idx) :
    mask3 idx j = 1#1 := by
  unfold mask3
  refine reduce_andi_ones _ _ _ _ _ rfl fun i => ?_
  rw [inTable_apply, start3_apply]
  exact inTable_wrap (hr _ _)

/-- With every word in range, the take at `(a, b, k)` is the table at the row the wrapped word selects. -/
theorem take3_apply (x : S8192x128.Idx → EReal) (idx : IVec S8x1024 32)
    (hr : ∀ (a : Fin 8) (b : Fin 1024), InRange (idx (ix2 a b))) (a : Fin 8) (b : Fin 1024) (k : Fin 128) :
    take3 x idx (ix3 a b k) = x (ix2 (rowOf (wrap (idx (ix2 a b)))) k) := by
  have hm : broadcastInDim S8x1024x128 ![0, 1] bcast_S8x1024_S8x1024x128_0_1 (mask3 idx) (ix3 a b k) = 1#1 :=
    (broadcastInDim_apply _ _ _ _ (ix2 a b) fun c => by match c with | ⟨0, _⟩ => rfl | ⟨1, _⟩ => rfl).trans (mask3_apply idx hr _)
  unfold take3
  rw [select_apply, hm, select_one]
  refine (Cert.Segment.gather_rows3 _ rfl rfl rfl rfl rfl x _ a b k (by decide)).trans ?_
  refine congrArg (fun r => x (ix2 r k)) (Fin.ext ?_)
  exact congrArg (fun w : BitVec 32 => min w.toInt.toNat (8192 - 1)) (start3_apply idx _)

/-! ## The two column halves -/

/-- The left half of the projected table reads its column as it is. -/
theorem sliceL_apply (M : S8192x256.Idx → EReal) (r : Fin 8192) (k : Fin 128) :
    extractStridedSlice S8192x128 ![0, 0] M slices_S8192x256_S8192x128_0_0 (ix2 r k) = M (ix2 r ⟨k.val, by omega⟩) :=
  extractStridedSlice_apply _ M _ _ _ fun a => by
    match a with
    | ⟨0, _⟩ => exact (Nat.zero_add _).symm
    | ⟨1, _⟩ => exact (Nat.zero_add _).symm

/-- The right half reads its column 128 further on. -/
theorem sliceR_apply (M : S8192x256.Idx → EReal) (r : Fin 8192) (k : Fin 128) :
    extractStridedSlice S8192x128 ![0, 128] M slices_S8192x256_S8192x128_0_128 (ix2 r k) = M (ix2 r ⟨128 + k.val, by omega⟩) :=
  extractStridedSlice_apply _ M _ _ _ fun a => by
    match a with
    | ⟨0, _⟩ => exact (Nat.zero_add _).symm
    | ⟨1, _⟩ => rfl

/-! ## The host operations after the kernel -/

set_option maxHeartbeats 1000000 in
/-- The target result, whole: the take of the table's left half by the target words. -/
theorem tgt_whole (dats : (p : Fin 1) → (c : Dev nD) → Dat τ (Elt Ideal) Unit ℕ (UR sig nD τ) ℕ (cfgs p) c) (c : Dev nD) :
    Pipeline.afterTail₀ cfgs dats 0 (V0 m) [hostOps1, hostOps1_1, hostOps1_2, hostOps1_3] c main_v6
      = take1 (extractStridedSlice S8192x128 ![0, 0]
            (Pipeline.withArrays (cfgs 0).spec c (V0 m c) (fun w => (dats 0 c).arrAt w (cfgs 0).N) (Proc.devRef .tc main_v3))
            slices_S8192x256_S8192x128_0_0)
          (Pipeline.withArrays (cfgs 0).spec c (V0 m c) (fun w => (dats 0 c).arrAt w (cfgs 0).N) (Proc.devRef .tc main_arg1)) := by
  unfold Pipeline.afterTail₀
  simp only [hostOps1, hostOps1_1, hostOps1_2, hostOps1_3, List.flatten_cons, List.flatten_nil, List.append_nil, List.cons_append,
    List.nil_append]
  after_results_simp
  simp only [StableHlo.TRef.ofBuf, StableHlo.TRef.toBuf, cast_cast, cast_eq]
  rfl

set_option maxHeartbeats 1000000 in
/-- The context result, whole: the take of the table's right half by the context words, transposed. -/
theorem ctx_whole (dats : (p : Fin 1) → (c : Dev nD) → Dat τ (Elt Ideal) Unit ℕ (UR sig nD τ) ℕ (cfgs p) c) (c : Dev nD) :
    Pipeline.afterTail₀ cfgs dats 0 (V0 m) [hostOps1, hostOps1_1, hostOps1_2, hostOps1_3] c main_v8
      = take3 (extractStridedSlice S8192x128 ![0, 128]
            (Pipeline.withArrays (cfgs 0).spec c (V0 m c) (fun w => (dats 0 c).arrAt w (cfgs 0).N) (Proc.devRef .tc main_v3))
            slices_S8192x256_S8192x128_0_128)
          (transpose S8x1024 [1, 0]
            (Pipeline.withArrays (cfgs 0).spec c (V0 m c) (fun w => (dats 0 c).arrAt w (cfgs 0).N) (Proc.devRef .tc main_arg0))
            transposes_S1024x8_S8x1024_1_0) := by
  unfold Pipeline.afterTail₀
  simp only [hostOps1, hostOps1_1, hostOps1_2, hostOps1_3, List.flatten_cons, List.flatten_nil, List.append_nil, List.cons_append,
    List.nil_append]
  after_results_simp
  simp only [StableHlo.TRef.ofBuf, StableHlo.TRef.toBuf, cast_cast, cast_eq]
  rfl

/-- The kernel's output array as the region leaves it. -/
theorem exit_v3 (dats : (p : Fin 1) → (c : Dev nD) → Dat τ (Elt Ideal) Unit ℕ (UR sig nD τ) ℕ (cfgs p) c) (c : Dev nD)
    (M : S8192x256.Idx → EReal) (hM : (dats 0 c).arrAt 2 cfg0.N = M) :
    Pipeline.withArrays (cfgs 0).spec c (V0 m c) (fun w => (dats 0 c).arrAt w (cfgs 0).N) (Proc.devRef .tc main_v3) = M :=
  (Pipeline.withArrays_arr spec0 launch0.win.arr_inj c _ _ 2).trans hM

/-- The context result at `(cc, b, h)`: the projected table's column `128 + h` at the row the word `contexts[b, cc]`
    selects. `M` is what the kernel's output array holds after the region. -/
theorem tail_ctx (dats : (p : Fin 1) → (c : Dev nD) → Dat τ (Elt Ideal) Unit ℕ (UR sig nD τ) ℕ (cfgs p) c) (c : Dev nD)
    (M : S8192x256.Idx → EReal) (hM : (dats 0 c).arrAt 2 cfg0.N = M)
    (hr : ∀ (b : Fin 1024) (cc : Fin 8), InRange (m ((c : Thread nD τ).loc main_arg0) (ix2 b cc)))
    (cc : Fin 8) (b : Fin 1024) (h : Fin 128) :
    Pipeline.afterTail₀ cfgs dats 0 (V0 m) [hostOps1, hostOps1_1, hostOps1_2, hostOps1_3] c main_v8 (ix3 cc b h)
      = M (ix2 (rowOf (wrap (m ((c : Thread nD τ).loc main_arg0) (ix2 b cc)))) ⟨128 + h.val, by omega⟩) := by
  have hI : Pipeline.withArrays (cfgs 0).spec c (V0 m c) (fun w => (dats 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have ht : ∀ (a : Fin 8) (b' : Fin 1024),
      transpose S8x1024 [1, 0] (m ((c : Thread nD τ).loc main_arg0)) transposes_S1024x8_S8x1024_1_0 (ix2 a b')
        = m ((c : Thread nD τ).loc main_arg0) (ix2 b' a) :=
    fun a b' => transpose_ix2_apply (a := 1024) (b := 8) (α := BitVec 32) _ transposes_S1024x8_S8x1024_1_0 a b'
  rw [ctx_whole m dats c, exit_v3 m dats c M hM, hI, take3_apply _ _ (fun a b' => by rw [ht]; exact hr b' a), sliceR_apply, ht]

/-- The target result at `(b, h)`: the projected table's column `h` at the row the word `target[b]` selects. -/
theorem tail_tgt (dats : (p : Fin 1) → (c : Dev nD) → Dat τ (Elt Ideal) Unit ℕ (UR sig nD τ) ℕ (cfgs p) c) (c : Dev nD)
    (M : S8192x256.Idx → EReal) (hM : (dats 0 c).arrAt 2 cfg0.N = M)
    (hr : ∀ b : Fin 1024, InRange (m ((c : Thread nD τ).loc main_arg1) (ix1 b)))
    (b : Fin 1024) (h : Fin 128) :
    Pipeline.afterTail₀ cfgs dats 0 (V0 m) [hostOps1, hostOps1_1, hostOps1_2, hostOps1_3] c main_v6 (ix2 b h)
      = M (ix2 (rowOf (wrap (m ((c : Thread nD τ).loc main_arg1) (ix1 b)))) ⟨h.val, by omega⟩) := by
  have hI : Pipeline.withArrays (cfgs 0).spec c (V0 m c) (fun w => (dats 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  rw [tgt_whole m dats c, exit_v3 m dats c M hM, hI, take1_apply _ _ hr, sliceL_apply]

end Cert.CoProj.Tail

end
-- ==== Proof.KernelRun.lean ====
/-
  The kernel program's run, read: both results at an index are the projected row of the specification at the row
  their index word selects, when every index word is in range.
-/
import proofs.«423988_j36223754174522_3_alg».proof.Proof.Final
import proofs.«423988_j36223754174522_3_alg».proof.Proof.Wcat
import proofs.«423988_j36223754174522_3_alg».proof.Proof.Tail
import proofs.«423988_j36223754174522_3_alg».proof.Proof.Spec

noncomputable section

open scoped BigOperators
open Idealize.ShloMosaic Idealize.ShloMosaic.TcCoe Idealize.ShloMosaic.ValueIdx Idealize.SL.Sem
open Idealize.ShloMosaic.Pipeline (Dat)

namespace Cert.CoProj.KRun

open Cert.KernelIdeal Cert.KernelIdeal.Gen Cert.CoProj.Accum

variable (m : (ℓ : Loc nD τ sig) → Buf (Elt Ideal) ℓ) (ρ : Dev nD → PrngReg)

/-- The context result: what the host operations after the region leave in it. -/
abbrev ctxRes (c : Dev nD) : Buf (Elt Ideal) ((c.tc : Thread nD τ).loc main_v8) :=
  Pipeline.afterTail₀ cfgs (dats m) 0 (V0 m) [hostOps1, hostOps1_1, hostOps1_2, hostOps1_3] c main_v8
/-- The target result. -/
abbrev tgtRes (c : Dev nD) : Buf (Elt Ideal) ((c.tc : Thread nD τ).loc main_v6) :=
  Pipeline.afterTail₀ cfgs (dats m) 0 (V0 m) [hostOps1, hostOps1_1, hostOps1_2, hostOps1_3] c main_v6

/-- The run: every weakly fair execution terminates with the two results as named and the arguments unchanged. -/
theorem run : θ_run (defs (F := Ideal)) (onTc (τ := τ) (main (F := Ideal))) ⟨m, fun _ => 0, ρ⟩ fun r => ∀ c : Dev nD,
      r.2.mem ((c.tc : Thread nD τ).loc main_v8) = ctxRes m c
      ∧ r.2.mem ((c.tc : Thread nD τ).loc main_v6) = tgtRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c).2 main_v8 (Pipeline.mem_restRefs_of main_v8 (by decide) (by decide)),
      (h c).2 main_v6 (Pipeline.mem_restRefs_of main_v6 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-- The projected table's right half at `(v, 128 + h)` is the specification's projected row for the input weights. -/
theorem tab_right (c : Dev nD) (v : Fin 8192) (h : Fin 128) :
    tab m c v ⟨128 + h.val, by omega⟩
      = proj (m ((c.tc : Thread nD τ).loc main_arg2)) (m ((c.tc : Thread nD τ).loc main_arg3)) v h := by
  unfold tab proj
  refine congrArg₂ (· + ·) (Wcat.wcat_right m c v h) (Finset.sum_congr rfl fun k _ => ?_)
  exact congrArg₂ (· * ·) (congrFun (V_main_arg2 m c) (ix2 v k)) (Wcat.wcat_right m c k h)

/-- The projected table's left half at `(v, h)` is the specification's projected row for the target weights. -/
theorem tab_left (c : Dev nD) (v : Fin 8192) (h : Fin 128) :
    tab m c v ⟨h.val, by omega⟩
      = proj (m ((c.tc : Thread nD τ).loc main_arg2)) (m ((c.tc : Thread nD τ).loc main_arg4)) v h := by
  unfold tab proj
  refine congrArg₂ (· + ·) (Wcat.wcat_left m c v h) (Finset.sum_congr rfl fun k _ => ?_)
  exact congrArg₂ (· * ·) (congrFun (V_main_arg2 m c) (ix2 v k)) (Wcat.wcat_left m c k h)

/-- The context result at `(cc, b, h)`. -/
theorem ctxRes_apply (c : Dev nD)
    (hr : ∀ (b : Fin 1024) (cc : Fin 8), InRange (m ((c : Thread nD τ).loc main_arg0) (ix2 b cc)))
    (cc : Fin 8) (b : Fin 1024) (h : Fin 128) :
    ctxRes m c (ix3 cc b h)
      = proj (m ((c.tc : Thread nD τ).loc main_arg2)) (m ((c.tc : Thread nD τ).loc main_arg3))
          (rowOf (wrap (m ((c.tc : Thread nD τ).loc main_arg0) (ix2 b cc)))) h :=
  (Tail.tail_ctx m (dats m) c (table m c) (final m c) hr cc b h).trans
    ((table_apply m c _ _).trans (tab_right m c _ h))

/-- The target result at `(b, h)`. -/
theorem tgtRes_apply (c : Dev nD)
    (hr : ∀ b : Fin 1024, InRange (m ((c : Thread nD τ).loc main_arg1) (ix1 b)))
    (b : Fin 1024) (h : Fin 128) :
    tgtRes m c (ix2 b h)
      = proj (m ((c.tc : Thread nD τ).loc main_arg2)) (m ((c.tc : Thread nD τ).loc main_arg4))
          (rowOf (wrap (m ((c.tc : Thread nD τ).loc main_arg1) (ix1 b)))) h :=
  (Tail.tail_tgt m (dats m) c (table m c) (final m c) hr b h).trans
    ((table_apply m c _ _).trans (tab_left m c _ h))

end Cert.CoProj.KRun

end
-- ==== Proof.RefValue.lean ====
/-
  The reference program read at an index. Its context result at `(cc, b, h)` is the weight column gathered at the row
  the word `contexts[b, cc]` selects plus the gathered co-occurrence row's product with the input weights; its target
  result at `(b, h)` the same with the word `target[b]` and the target weights: the projected row of the specification.
-/
import proofs.«423988_j36223754174522_3_alg».proof.Defs
import proofs.«423988_j36223754174522_3_alg».proof.Proof.Gen.ReferenceIdeal.Run
import proofs.«423988_j36223754174522_3_alg».proof.Proof.Gen.ReferenceIdeal.Read
import proofs.«423988_j36223754174522_3_alg».proof.Proof.Spec
import proofs.«423988_j36223754174522_3_alg».proof.Proof.LibSegment
import proofs.«423988_j36223754174522_3_alg».proof.Proof.LibGatherRows3
import Idealize.ShloMosaic.PureOps.Ideal.Laws

noncomputable section

namespace Cert.CoProj.Ref

open Idealize.ShloMosaic Idealize.ShloMosaic.TcCoe Idealize.ShloMosaic.ValueIdx Idealize.SL.Sem
open Cert.ReferenceIdeal
open Idealize.ShloMosaic.StableHlo.Predicate (ixP)

/-! ## The start indices are the wrapped words

Each of the four row gathers takes as start index the index word wrapped once: `select (w < 0) (w + 8192) w`, the
constants broadcast from scalars. Read at one position this is `wrap` of the word there. -/

/-- The start index of the target weight gather at batch row `b` is the wrapped word `target[b]`. -/
theorem start_v6 (x1 : (⟨S1024, .i32⟩ : BufTy).Contents (Elt Ideal)) (b : Fin 1024) :
    Read.val_main_v6 (F := Ideal) x1 (ixP b) = wrap (x1 (ix1 b)) := by
  have hj : Read.idx_main_v6 (ixP b) = ix1 b := funext fun a => by match a with | ⟨0, _⟩ => rfl
  rw [Read.val_main_v6_apply, hj, Read.val_main_v5_apply, Read.val_main_v2_apply, Read.val_main_v1_apply,
    Read.val_main_c_apply, Read.val_main_v4_apply, Read.val_main_v3_apply, Read.val_main_c_0_apply]
  rfl

/-- The start index of the target co-occurrence gather at batch row `b` is the wrapped word `target[b]`. -/
theorem start_v13 (x1 : (⟨S1024, .i32⟩ : BufTy).Contents (Elt Ideal)) (b : Fin 1024) :
    Read.val_main_v13 (F := Ideal) x1 (ixP b) = wrap (x1 (ix1 b)) := by
  have hj : Read.idx_main_v13 (ixP b) = ix1 b := funext fun a => by match a with | ⟨0, _⟩ => rfl
  rw [Read.val_main_v13_apply, hj, Read.val_main_v12_apply, Read.val_main_v9_apply, Read.val_main_v8_apply,
    Read.val_main_c_1_apply, Read.val_main_v11_apply, Read.val_main_v10_apply, Read.val_main_c_2_apply]
  rfl

/-- The start index of the context co-occurrence gather at `(b, cc)` is the wrapped word `contexts[b, cc]`. -/
theorem start_v23 (x0 : (⟨S1024x8, .i32⟩ : BufTy).Contents (Elt Ideal)) (b : Fin 1024) (cc : Fin 8) :
    Read.val_main_v23 (F := Ideal) x0 (ix3 b cc (0 : Fin 1)) = wrap (x0 (ix2 b cc)) := by
  have hj : Read.idx_main_v23 (ix3 b cc (0 : Fin 1)) = ix2 b cc :=
    funext fun a => by match a with | ⟨0, _⟩ => rfl | ⟨1, _⟩ => rfl
  rw [Read.val_main_v23_apply, hj, Read.val_main_v22_apply, Read.val_main_v19_apply, Read.val_main_v18_apply,
    Read.val_main_c_3_apply, Read.val_main_v21_apply, Read.val_main_v20_apply, Read.val_main_c_4_apply]
  rfl

/-- The start index of the context weight gather at `(b, cc)` is the wrapped word `contexts[b, cc]`. -/
theorem start_v31 (x0 : (⟨S1024x8, .i32⟩ : BufTy).Contents (Elt Ideal)) (b : Fin 1024) (cc : Fin 8) :
    Read.val_main_v31 (F := Ideal) x0 (ix3 b cc (0 : Fin 1)) = wrap (x0 (ix2 b cc)) := by
  have hj : Read.idx_main_v31 (ix3 b cc (0 : Fin 1)) = ix2 b cc :=
    funext fun a => by match a with | ⟨0, _⟩ => rfl | ⟨1, _⟩ => rfl
  rw [Read.val_main_v31_apply, hj, Read.val_main_v30_apply, Read.val_main_v27_apply, Read.val_main_v26_apply,
    Read.val_main_c_5_apply, Read.val_main_v29_apply, Read.val_main_v28_apply, Read.val_main_c_6_apply]
  rfl

/-! ## The four row gathers -/

/-- The target weight gather: the transposed target weights' row selected by `target[b]`, at feature `h`. -/
theorem v7_at (x1 : (⟨S1024, .i32⟩ : BufTy).Contents (Elt Ideal)) (x4 : (⟨S128x8192, .f32⟩ : BufTy).Contents (Elt Ideal))
    (b : Fin 1024) (h : Fin 128) :
    Read.val_main_v7 (F := Ideal) x1 x4 (ix2 b h) = x4 (ix2 h (rowOf (wrap (x1 (ix1 b))))) := by
  unfold Read.val_main_v7
  refine (Cert.Segment.gather_rows gather_S8192x128_S1024x1_S1024x128_1_0_n_n_0_1_1128 rfl rfl rfl rfl rfl
    (Read.val_main_v0 (F := Ideal) x4) (Read.val_main_v6 (F := Ideal) x1) b h (by decide)).trans ?_
  rw [Read.val_main_v0_apply]
  refine congrArg x4 (funext fun a => ?_)
  match a with
  | ⟨0, _⟩ => rfl
  | ⟨1, _⟩ => exact Fin.ext (congrArg (fun w : BitVec 32 => min w.toInt.toNat (8192 - 1)) (start_v6 x1 b))

/-- The target co-occurrence gather: the table's row selected by `target[b]`, at column `k`. -/
theorem v14_at (x1 : (⟨S1024, .i32⟩ : BufTy).Contents (Elt Ideal)) (x2 : (⟨S8192x8192, .f32⟩ : BufTy).Contents (Elt Ideal))
    (b : Fin 1024) (k : Fin 8192) :
    Read.val_main_v14 (F := Ideal) x1 x2 (ix2 b k) = x2 (ix2 (rowOf (wrap (x1 (ix1 b)))) k) := by
  unfold Read.val_main_v14
  refine (Cert.Segment.gather_rows gather_S8192x8192_S1024x1_S1024x8192_1_0_n_n_0_1_18192 rfl rfl rfl rfl rfl
    x2 (Read.val_main_v13 (F := Ideal) x1) b k (by decide)).trans ?_
  refine congrArg x2 (funext fun a => ?_)
  match a with
  | ⟨0, _⟩ => exact Fin.ext (congrArg (fun w : BitVec 32 => min w.toInt.toNat (8192 - 1)) (start_v13 x1 b))
  | ⟨1, _⟩ => rfl

/-- The context co-occurrence gather: the table's row selected by `contexts[b, cc]`, at column `k`. -/
theorem v24_at (x0 : (⟨S1024x8, .i32⟩ : BufTy).Contents (Elt Ideal)) (x2 : (⟨S8192x8192, .f32⟩ : BufTy).Contents (Elt Ideal))
    (b : Fin 1024) (cc : Fin 8) (k : Fin 8192) :
    Read.val_main_v24 (F := Ideal) x0 x2 (ix3 b cc k) = x2 (ix2 (rowOf (wrap (x0 (ix2 b cc)))) k) := by
  unfold Read.val_main_v24
  refine (Cert.Segment.gather_rows3 gather_S8192x8192_S1024x8x1_S1024x8x8192_2_0_n_n_0_2_18192 rfl rfl rfl rfl rfl
    x2 (Read.val_main_v23 (F := Ideal) x0) b cc k (by decide)).trans ?_
  refine congrArg x2 (funext fun a => ?_)
  match a with
  | ⟨0, _⟩ => exact Fin.ext (congrArg (fun w : BitVec 32 => min w.toInt.toNat (8192 - 1)) (start_v23 x0 b cc))
  | ⟨1, _⟩ => rfl

/-- The context weight gather: the transposed input weights' row selected by `contexts[b, cc]`, at feature `h`. -/
theorem v32_at (x0 : (⟨S1024x8, .i32⟩ : BufTy).Contents (Elt Ideal)) (x3 : (⟨S128x8192, .f32⟩ : BufTy).Contents (Elt Ideal))
    (b : Fin 1024) (cc : Fin 8) (h : Fin 128) :
    Read.val_main_v32 (F := Ideal) x0 x3 (ix3 b cc h) = x3 (ix2 h (rowOf (wrap (x0 (ix2 b cc))))) := by
  unfold Read.val_main_v32
  refine (Cert.Segment.gather_rows3 gather_S8192x128_S1024x8x1_S1024x8x128_2_0_n_n_0_2_1128 rfl rfl rfl rfl rfl
    (Read.val_main_v25 (F := Ideal) x3) (Read.val_main_v31 (F := Ideal) x0) b cc h (by decide)).trans ?_
  rw [Read.val_main_v25_apply]
  refine congrArg x3 (funext fun a => ?_)
  match a with
  | ⟨0, _⟩ => rfl
  | ⟨1, _⟩ => exact Fin.ext (congrArg (fun w : BitVec 32 => min w.toInt.toNat (8192 - 1)) (start_v31 x0 b cc))

/-! ## The two results at an index -/

/-- The target result at `(b, h)`: the projected row selected by `target[b]`, with the target weights. -/
theorem tgt_val (x1 : (⟨S1024, .i32⟩ : BufTy).Contents (Elt Ideal)) (x2 : (⟨S8192x8192, .f32⟩ : BufTy).Contents (Elt Ideal))
    (x4 : (⟨S128x8192, .f32⟩ : BufTy).Contents (Elt Ideal)) (b : Fin 1024) (h : Fin 128) :
    Read.val_main_v17 (F := Ideal) x1 x2 x4 (ix2 b h) = proj x2 x4 (rowOf (wrap (x1 (ix1 b)))) h := by
  rw [Read.val_main_v17_apply, Ideal.addf_def, v7_at, Read.val_main_v16_apply]
  unfold proj
  refine congrArg (fun s => x4 (ix2 h (rowOf (wrap (x1 (ix1 b))))) + s) (Finset.sum_congr rfl fun k _ => ?_)
  have hl : Read.lidx_main_v16 (ix2 b h) k = ix2 b k :=
    funext fun a => by match a with | ⟨0, _⟩ => rfl | ⟨1, _⟩ => rfl
  have hr : Read.idx_main_v15 (Read.ridx_main_v16 (ix2 b h) k) = ix2 h k :=
    funext fun a => by match a with | ⟨0, _⟩ => rfl | ⟨1, _⟩ => rfl
  rw [hl, v14_at, Read.val_main_v15_apply, hr]

/-- The context result at `(cc, b, h)`: the projected row selected by `contexts[b, cc]`, with the input weights. -/
theorem ctx_val (x0 : (⟨S1024x8, .i32⟩ : BufTy).Contents (Elt Ideal)) (x2 : (⟨S8192x8192, .f32⟩ : BufTy).Contents (Elt Ideal))
    (x3 : (⟨S128x8192, .f32⟩ : BufTy).Contents (Elt Ideal)) (cc : Fin 8) (b : Fin 1024) (h : Fin 128) :
    Read.val_main_v35 (F := Ideal) x0 x2 x3 (ix3 cc b h) = proj x2 x3 (rowOf (wrap (x0 (ix2 b cc)))) h := by
  have ht : Read.idx_main_v35 (ix3 cc b h) = ix3 b cc h :=
    funext fun a => by match a with | ⟨0, _⟩ => rfl | ⟨1, _⟩ => rfl | ⟨2, _⟩ => rfl
  rw [Read.val_main_v35_apply, ht, Read.val_main_v34_apply, Ideal.addf_def, v32_at, Read.val_main_v33_apply]
  unfold proj
  refine congrArg (fun s => x3 (ix2 h (rowOf (wrap (x0 (ix2 b cc))))) + s) (Finset.sum_congr rfl fun k _ => ?_)
  have hl : Read.lidx_main_v33 (ix3 b cc h) k = ix3 b cc k :=
    funext fun a => by match a with | ⟨0, _⟩ => rfl | ⟨1, _⟩ => rfl | ⟨2, _⟩ => rfl
  have hr : Read.ridx_main_v33 (ix3 b cc h) k = ix2 h k :=
    funext fun a => by match a with | ⟨0, _⟩ => rfl | ⟨1, _⟩ => rfl
  rw [hl, v24_at, hr]

variable (m : (ℓ : Loc nD τ sig) → Buf (Elt Ideal) ℓ) (ρ : Dev nD → PrngReg)

/-- The reference's run with both results read at an index: each entry is the projected row of the specification at
    the row its index word selects; the arguments end unchanged. -/
theorem run_at : θ_run (defs (F := Ideal)) (onTc (τ := τ) (main (F := Ideal))) ⟨m, fun _ => 0, ρ⟩ fun r => ∀ c : Dev nD,
      (∀ (cc : Fin 8) (b : Fin 1024) (h : Fin 128),
        r.2.mem ((c.tc : Thread nD τ).loc main_v35) (ix3 cc b h)
          = proj (m ((c.tc : Thread nD τ).loc main_arg2)) (m ((c.tc : Thread nD τ).loc main_arg3))
              (rowOf (wrap (m ((c.tc : Thread nD τ).loc main_arg0) (ix2 b cc)))) h)
      ∧ (∀ (b : Fin 1024) (h : Fin 128),
        r.2.mem ((c.tc : Thread nD τ).loc main_v17) (ix2 b h)
          = proj (m ((c.tc : Thread nD τ).loc main_arg2)) (m ((c.tc : Thread nD τ).loc main_arg4))
              (rowOf (wrap (m ((c.tc : Thread nD τ).loc main_arg1) (ix1 b)))) h)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r hr c => ⟨?_, ?_, (hr c).2.2⟩) (Cert.ReferenceIdeal.Value.run (F := Ideal) m ρ)
  · intro cc b h
    rw [(hr c).1, Read.val_main_v35_eq]
    exact ctx_val _ _ _ cc b h
  · intro b h
    rw [(hr c).2.1, Read.val_main_v17_eq]
    exact tgt_val _ _ _ b h

end Cert.CoProj.Ref

end
-- ==== Proof.PreRange.lean ====
/-
  What the precondition says about the two index arrays: every index word lies in the table's range.
-/
import proofs.«423988_j36223754174522_3_alg».proof.Pre_finite_inputs
import proofs.«423988_j36223754174522_3_alg».proof.Proof.Spec
import Idealize.ShloMosaic.Lib.ReduceAll
import Idealize.ShloMosaic.Lib.StableHlo.Predicate

noncomputable section

namespace Cert.CoProj

open Idealize.ShloMosaic Idealize.ShloMosaic.ValueIdx

/-- The lower bound's word, read signed, is `-8192`. -/
theorem pre_lo_toInt : (4294959104#32 : BitVec 32).toInt = -8192 := by decide

/-- The upper bound's word, read signed, is `8192`. -/
theorem pre_hi_toInt : (8192#32 : BitVec 32).toInt = 8192 := by decide

/-- A word for which both bound comparisons (`w ≥ -8192` and `w < 8192`, signed) came out 1 is in range. -/
theorem inRange_of_bounds {w : BitVec 32}
    (h : IntOp.andi (IntOp.cmpi .sge w 4294959104#32) (IntOp.cmpi .slt w 8192#32) = 1#1) : InRange w := by
  obtain ⟨hl, hu⟩ := IntOp.andi_eq_one.1 h
  have hl' := IntOp.cmpi_sge.1 hl
  have hu' := IntOp.cmpi_slt.1 hu
  rw [pre_lo_toInt] at hl'
  rw [pre_hi_toInt] at hu'
  exact ⟨hl', hu'⟩

/-- Under the precondition every context index and every target index is in range. -/
theorem range_of_pre [Cert.Pre_finite_inputs.Facts] {F : FTy → Type} [FloatOps F]
    (a0 : IVec Cert.Pre_finite_inputs.S1024x8 32) (a1 : IVec Cert.Pre_finite_inputs.S1024 32)
    (a2 : FVec F Cert.Pre_finite_inputs.S8192x8192 .f32) (a3 a4 : FVec F Cert.Pre_finite_inputs.S128x8192 .f32)
    (h : Cert.Pre_finite_inputs.fn (F := F) a0 a1 a2 a3 a4 = fun _ => 1#1) :
    (∀ (b : Fin 1024) (c : Fin 8), InRange (a0 (ix2 b c))) ∧ (∀ b : Fin 1024, InRange (a1 (ix1 b))) := by
  -- the scalar shape has one index, so a reduction onto it runs over every element of its operand
  haveI : Subsingleton Cert.Pre_finite_inputs.S_.Idx := ⟨fun a b => funext fun d => d.elim0⟩
  -- the predicate's one value is a conjunction of five reductions by `and`: three on the float arrays,
  -- then the range of the context indices, then the range of the target indices
  have e := congrFun h ix0
  dsimp only [Cert.Pre_finite_inputs.fn, Cert.Pre_finite_inputs.fn_part1] at e
  obtain ⟨e20, e26⟩ := IntOp.andi_eq_one.1 e
  obtain ⟨-, e19⟩ := IntOp.andi_eq_one.1 e20
  constructor
  · -- each element of the reduced array is the pair of bound comparisons of one context index
    intro b c
    exact inRange_of_bounds (Host.reduce_andi_all _ _ _ _ _ e19 (ix2 b c))
  · -- and likewise for one target index
    intro b
    exact inRange_of_bounds (Host.reduce_andi_all _ _ _ _ _ e26 (ix1 b))

end Cert.CoProj

end
-- ==== Proof.lean ====
/-
  The certificate's claims.

  Both programs compute, for an index word `w` and a weight matrix `W`, the projected row
      W[h, r] + ∑ₖ co[r, k] · W[h, k]
  at the row `r` that `w` selects (wrapped once when negative, then clamped into the table by the row gather).
  The kernel program computes the whole projected table `Wcat + co · Wcat` block by block — each entry the weight
  entry plus four partial dot products added one after the other — and then takes rows from it; its take replaces a
  row whose wrapped word leaves the table by a junk value, which the precondition's index range rules out. The
  reference gathers the rows first and multiplies. On the extended reals the four partial dot products add up to the
  whole dot product (addition is associative and commutative there), the casts to the narrow float format are the
  identity, and no other law is needed, so the two results agree entry by entry.
-/
import proofs.«423988_j36223754174522_3_alg».proof.Defs
import proofs.«423988_j36223754174522_3_alg».proof.Proof.Gen.Kernel
import proofs.«423988_j36223754174522_3_alg».proof.Proof.Gen.Kernel.Frame
import proofs.«423988_j36223754174522_3_alg».proof.Proof.Gen.KernelIdeal
import proofs.«423988_j36223754174522_3_alg».proof.Proof.Gen.KernelIdeal.Frame
import proofs.«423988_j36223754174522_3_alg».proof.Proof.Gen.ReferenceIdeal
import proofs.«423988_j36223754174522_3_alg».proof.Proof.Gen.Pre_finite_inputs
import proofs.«423988_j36223754174522_3_alg».proof.Proof.KernelRun
import proofs.«423988_j36223754174522_3_alg».proof.Proof.RefValue
import proofs.«423988_j36223754174522_3_alg».proof.Proof.PreRange
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its results dropped. -/
theorem frame_ri : Cert.frame_ReferenceIdeal := fun m ρ _ =>
  (θ_run Cert.ReferenceIdeal.defs _ _).mono (fun _ h c => (h c).2.2) (Cert.CoProj.Ref.run_at m ρ)

theorem preserves : Cert.preserves_Kernel_KernelIdeal := trivial

/-- From memories agreeing on the arguments, with every index word in range, the two programs end with equal
    results: both are the specification's projected rows. -/
theorem algebraic : Cert.algebraic_KernelIdeal_ReferenceIdeal := by
  intro m ρ m' ρ' hpre hagree
  refine ⟨fun c => Cert.CoProj.KRun.ctxRes m c, fun c => Cert.CoProj.KRun.tgtRes m c, Cert.CoProj.KRun.run m ρ, ?_⟩
  refine (θ_run Cert.ReferenceIdeal.defs _ _).mono (fun _ h c => ⟨?_, ?_, ?_⟩) (Cert.CoProj.Ref.run_at m' ρ')
  · -- the context result
    obtain ⟨hctx, -⟩ := Cert.CoProj.range_of_pre _ _ _ _ _ (hpre c)
    funext j
    obtain ⟨cc, b, hh, rfl⟩ : ∃ (cc : Fin 8) (b : Fin 1024) (hh : Fin 128), j = ix3 cc b hh := ⟨j 0, j 1, j 2, eq_ix3 j⟩
    refine ((h c).1 cc b hh).trans (Eq.trans ?_ (Cert.CoProj.KRun.ctxRes_apply m c hctx cc b hh).symm)
    rw [(hagree c).1, (hagree c).2.2.1, (hagree c).2.2.2.1]
  · -- the target result
    obtain ⟨-, htgt⟩ := Cert.CoProj.range_of_pre _ _ _ _ _ (hpre c)
    funext j
    obtain ⟨b, hh, rfl⟩ : ∃ (b : Fin 1024) (hh : Fin 128), j = ix2 b hh := ⟨j 0, j 1, eq_ix2 j⟩
    refine ((h c).2.1 b hh).trans (Eq.trans ?_ (Cert.CoProj.KRun.tgtRes_apply m c htgt b hh).symm)
    rw [(hagree c).2.1, (hagree c).2.2.1, (hagree c).2.2.2.2]
  · exact (h c).2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
